-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x80x128x128 : Shape := ⟨4, ![16, 80, 128, 128]⟩
abbrev S10 : Shape := ⟨1, ![10]⟩
abbrev S_ : Shape := ⟨0, ![]⟩

class Facts : Prop where
  bcast_S_S16x80x128x128 : S_.BroadcastsInDim S16x80x128x128 (![] : Fin 0 → Fin S16x80x128x128.rank)
  reducesTo_S16x80x128x128_S_d0_1_2_3 : S16x80x128x128.ReducesTo [0, 1, 2, 3] S_
  h_S_ : 0 < S_.numel
  bcast_S_S10 : S_.BroadcastsInDim S10 (![] : Fin 0 → Fin S10.rank)
  reducesTo_S10_S_d0 : S10.ReducesTo [0] S_

variable [Facts]

def fn_part1 {F : FTy → Type} [FloatOps F] (main_arg0 : FVec F S16x80x128x128 .f32) (main_v13 : IVec S_ 1) (main_v15 : IVec S16x80x128x128 1) (main_c_5 : IVec S_ 1) : IVec S_ 1 :=
  let main_v16 : IVec S_ 1 := (fun x v => Host.reduce IntOp.andi x v reducesTo_S16x80x128x128_S_d0_1_2_3 h_S_) main_v15 main_c_5
  let main_v17 : IVec S_ 1 := andi main_v13 main_v16
  let main_cst_6 : FVec F S_ .f32 := constant S_ .f32 0x3F800000#32
  let main_v18 : FVec F S16x80x128x128 .f32 := broadcastInDim S16x80x128x128 ![] bcast_S_S16x80x128x128 main_cst_6
  let main_v19 : IVec S16x80x128x128 1 := cmpf .olt main_arg0 main_v18
  let main_c_7 : IVec S_ 1 := constantI S_ 1 1#1
  let main_v20 : IVec S_ 1 := (fun x v => Host.reduce IntOp.andi x v reducesTo_S16x80x128x128_S_d0_1_2_3 h_S_) main_v19 main_c_7
  let main_v21 : IVec S_ 1 := andi main_v17 main_v20
  main_v21

def fn {F : FTy → Type} [FloatOps F] (main_arg0 : FVec F S16x80x128x128 .f32) (main_arg1 : FVec F S16x80x128x128 .f32) (main_arg2 : FVec F S10 .f32) : IVec S_ 1 :=
  let main_v0 : FVec F S16x80x128x128 .f32 := Host.absf main_arg0
  let main_cst : FVec F S_ .f32 := constant S_ .f32 0x7F800000#32
  let main_v1 : FVec F S16x80x128x128 .f32 := broadcastInDim S16x80x128x128 ![] bcast_S_S16x80x128x128 main_cst
  let main_v2 : IVec S16x80x128x128 1 := cmpf .olt main_v0 main_v1
  let main_c : IVec S_ 1 := constantI S_ 1 1#1
  let main_v3 : IVec S_ 1 := (fun x v => Host.reduce IntOp.andi x v reducesTo_S16x80x128x128_S_d0_1_2_3 h_S_) main_v2 main_c
  let main_v4 : FVec F S16x80x128x128 .f32 := Host.absf main_arg1
  let main_cst_0 : FVec F S_ .f32 := constant S_ .f32 0x7F800000#32
  let main_v5 : FVec F S16x80x128x128 .f32 := broadcastInDim S16x80x128x128 ![] bcast_S_S16x80x128x128 main_cst_0
  let main_v6 : IVec S16x80x128x128 1 := cmpf .olt main_v4 main_v5
  let main_c_1 : IVec S_ 1 := constantI S_ 1 1#1
  let main_v7 : IVec S_ 1 := (fun x v => Host.reduce IntOp.andi x v reducesTo_S16x80x128x128_S_d0_1_2_3 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_cst_4 : FVec F S_ .f32 := constant S_ .f32 0x00000000#32
  let main_v14 : FVec F S16x80x128x128 .f32 := broadcastInDim S16x80x128x128 ![] bcast_S_S16x80x128x128 main_cst_4
  let main_v15 : IVec S16x80x128x128 1 := cmpf .ogt main_arg0 main_v14
  let main_c_5 : IVec S_ 1 := constantI S_ 1 1#1
  fn_part1 (F := F) main_arg0 main_v13 main_v15 main_c_5
-- ==== Kernel.lean ====
abbrev S16x80x128x128 : Shape := ⟨4, ![16, 80, 128, 128]⟩
abbrev S10 : Shape := ⟨1, ![10]⟩
abbrev S163840x128 : Shape := ⟨2, ![163840, 128]⟩
abbrev S2x8x128 : Shape := ⟨3, ![2, 8, 128]⟩
abbrev S4096x128 : Shape := ⟨2, ![4096, 128]⟩
abbrev S1x8x128 : Shape := ⟨3, ![1, 8, 128]⟩
abbrev S8x4096 : Shape := ⟨2, ![8, 4096]⟩
abbrev S1x1 : Shape := ⟨2, ![1, 1]⟩
abbrev S8x128 : Shape := ⟨2, ![8, 128]⟩
abbrev S128 : Shape := ⟨1, ![128]⟩
abbrev S1x128 : Shape := ⟨2, ![1, 128]⟩
abbrev S1 : Shape := ⟨1, ![1]⟩
abbrev S1x1x1 : Shape := ⟨3, ![1, 1, 1]⟩
abbrev S_ : Shape := ⟨0, ![]⟩
abbrev S1x10 : Shape := ⟨2, ![1, 10]⟩

abbrev nBuf : Space → Nat
  | .hbm => 37
  | .vmem => 8
  | .smem => 0
  | _ => 0

abbrev bufTy : (tb : Table) → Fin (tcTables nBuf tb) → BufTy
  | .hbm, ⟨0, _⟩ => ⟨S16x80x128x128, .f32⟩
  | .hbm, ⟨1, _⟩ => ⟨S16x80x128x128, .f32⟩
  | .hbm, ⟨2, _⟩ => ⟨S10, .f32⟩
  | .hbm, ⟨3, _⟩ => ⟨S163840x128, .f32⟩
  | .hbm, ⟨4, _⟩ => ⟨S163840x128, .f32⟩
  | .hbm, ⟨5, _⟩ => ⟨S2x8x128, .f32⟩
  | .hbm, ⟨6, _⟩ => ⟨S2x8x128, .f32⟩
  | .hbm, ⟨7, _⟩ => ⟨S_, .f32⟩
  | .hbm, ⟨8, _⟩ => ⟨S8x128, .f32⟩
  | .hbm, ⟨9, _⟩ => ⟨S1x10, .f32⟩
  | .hbm, ⟨10, _⟩ => ⟨S10, .f32⟩
  | .hbm, ⟨11, _⟩ => ⟨S_, .f32⟩
  | .hbm, ⟨12, _⟩ => ⟨S8x128, .f32⟩
  | .hbm, ⟨13, _⟩ => ⟨S1x10, .f32⟩
  | .hbm, ⟨14, _⟩ => ⟨S10, .f32⟩
  | .hbm, ⟨15, _⟩ => ⟨S_, .f32⟩
  | .hbm, ⟨16, _⟩ => ⟨S10, .f32⟩
  | .hbm, ⟨17, _⟩ => ⟨S10, .i1⟩
  | .hbm, ⟨18, _⟩ => ⟨S10, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S10, .f32⟩
  | .hbm, ⟨23, _⟩ => ⟨S10, .f32⟩
  | .hbm, ⟨24, _⟩ => ⟨S_, .f32⟩
  | .hbm, ⟨25, _⟩ => ⟨S10, .f32⟩
  | .hbm, ⟨26, _⟩ => ⟨S10, .f32⟩
  | .hbm, ⟨27, _⟩ => ⟨S_, .f32⟩
  | .hbm, ⟨28, _⟩ => ⟨S_, .i1⟩
  | .hbm, ⟨29, _⟩ => ⟨S10, .f32⟩
  | .hbm, ⟨30, _⟩ => ⟨S10, .f32⟩
  | .hbm, ⟨31, _⟩ => ⟨S10, .f32⟩
  | .hbm, ⟨32, _⟩ => ⟨S10, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S16x80x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 20], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x80x128x128_S163840x128 : S16x80x128x128.ShapeCasts S163840x128
  inb_S1x8x128_S1x8x128_0_0_0 : ∀ a, (![0, 0, 0] : Fin 3 → Nat) a + S1x8x128.size a ≤ S1x8x128.size a
  h_S1x8x128 : 0 < S1x8x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1x8x128_d1_w32 : S1x8x128.Iotas .tc 32 [1]
  iota_S1x8x128_d2_w32 : S1x8x128.Iotas .tc 32 [2]
  natLt_1_32 : 1 < 32
  bitsLt_bf16_f32 : FTy.bits .bf16 < FTy.bits .f32
  reduces_S8x128_S128 : S8x128.Reduces [0] S128
  shapeCasts_S128_S1x128 : S128.ShapeCasts S1x128
  reduces_S1x128_S1 : S1x128.Reduces [1] S1
  shapeCasts_S1_S1x1 : S1.ShapeCasts S1x1
  reduces_S4096x128_S128 : S4096x128.Reduces [0] S128
  shapeCasts_S1x1_S1x1x1 : S1x1.ShapeCasts S1x1x1
  broadcasts_S1x1x1_S1x8x128 : S1x1x1.Broadcasts S1x8x128
  shapeCasts_S1x8x128_S1x8x128 : S1x8x128.ShapeCasts S1x8x128
  reducesTo_S2x8x128_S8x128_d0 : S2x8x128.ReducesTo [0] S8x128
  h_S_ : 0 < S_.numel
  slices_S8x128_S1x10_0_0 : S8x128.Slices ![0, 0] S1x10
  shapeCasts_S1x10_S10 : S1x10.ShapeCasts S10
  bcast_S_S10 : S_.BroadcastsInDim S10 (![] : Fin 0 → Fin S10.rank)
  reducesTo_S10_S_d0 : S10.ReducesTo [0] S_
  dot_S8x4096_S4096x128_S8x128_1_0_0_1_n_n_wf : DotDims.WF S8x4096 S4096x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S163840x128.size a
  hwx0_0 : ∀ i : grid0.Coords, EltTy.bits .f32 = 32 ∨ (Rect.block (s := S163840x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S163840x128.size a
  hwx0_1 : ∀ i : grid0.Coords, EltTy.bits .f32 = 32 ∨ (Rect.block (s := S163840x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S8x4096_S4096x128_S8x128_1_0_0_1_n_n : DotDims S8x4096 S4096x128 S8x128 where
  lhsContracting := [1]
  rhsContracting := [0]
  lhsNonContracting := [0]
  rhsNonContracting := [1]
  lhsBatch := []
  rhsBatch := []
  wf := dot_S8x4096_S4096x128_S8x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x80x128x128 : Shape := ⟨4, ![16, 80, 128, 128]⟩
abbrev S10 : Shape := ⟨1, ![10]⟩
abbrev S_ : Shape := ⟨0, ![]⟩
abbrev S16x80x128x128x1 : Shape := ⟨5, ![16, 80, 128, 128, 1]⟩

abbrev nBuf : Space → Nat
  | .hbm => 75
  | .vmem => 0
  | .smem => 0
  | _ => 0

abbrev bufTy : (tb : Table) → Fin (tcTables nBuf tb) → BufTy
  | .hbm, ⟨0, _⟩ => ⟨S16x80x128x128, .f32⟩
  | .hbm, ⟨1, _⟩ => ⟨S16x80x128x128, .f32⟩
  | .hbm, ⟨2, _⟩ => ⟨S10, .f32⟩
  | .hbm, ⟨3, _⟩ => ⟨S16x80x128x128, .f32⟩
  | .hbm, ⟨4, _⟩ => ⟨S16x80x128x128, .f32⟩
  | .hbm, ⟨5, _⟩ => ⟨S_, .f32⟩
  | .hbm, ⟨6, _⟩ => ⟨S16x80x128x128, .f32⟩
  | .hbm, ⟨7, _⟩ => ⟨S16x80x128x128, .f32⟩
  | .hbm, ⟨8, _⟩ => ⟨S16x80x128x128, .f32⟩
  | .hbm, ⟨9, _⟩ => ⟨S16x80x128x128, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S16x80x128x128, .i32⟩
  | .hbm, ⟨14, _⟩ => ⟨S16x80x128x128, .i32⟩
  | .hbm, ⟨15, _⟩ => ⟨S_, .i32⟩
  | .hbm, ⟨16, _⟩ => ⟨S16x80x128x128, .i32⟩
  | .hbm, ⟨17, _⟩ => ⟨S16x80x128x128, .i32⟩
  | .hbm, ⟨18, _⟩ => ⟨S_, .f32⟩
  | .hbm, ⟨19, _⟩ => ⟨S10, .f32⟩
  | .hbm, ⟨20, _⟩ => ⟨S_, .i32⟩
  | .hbm, ⟨21, _⟩ => ⟨S16x80x128x128, .i32⟩
  | .hbm, ⟨22, _⟩ => ⟨S16x80x128x128, .i1⟩
  | .hbm, ⟨23, _⟩ => ⟨S_, .i32⟩
  | .hbm, ⟨24, _⟩ => ⟨S16x80x128x128, .i32⟩
  | .hbm, ⟨25, _⟩ => ⟨S16x80x128x128, .i32⟩
  | .hbm, ⟨26, _⟩ => ⟨S16x80x128x128, .i32⟩
  | .hbm, ⟨27, _⟩ => ⟨S16x80x128x128x1, .i32⟩
  | .hbm, ⟨28, _⟩ => ⟨S_, .f32⟩
  | .hbm, ⟨29, _⟩ => ⟨S16x80x128x128, .f32⟩
  | .hbm, ⟨30, _⟩ => ⟨S10, .f32⟩
  | .hbm, ⟨31, _⟩ => ⟨S_, .f32⟩
  | .hbm, ⟨32, _⟩ => ⟨S10, .f32⟩
  | .hbm, ⟨33, _⟩ => ⟨S10, .i1⟩
  | .hbm, ⟨34, _⟩ => ⟨S10, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S10, .f32⟩
  | .hbm, ⟨39, _⟩ => ⟨S10, .f32⟩
  | .hbm, ⟨40, _⟩ => ⟨S_, .f32⟩
  | .hbm, ⟨41, _⟩ => ⟨S10, .f32⟩
  | .hbm, ⟨42, _⟩ => ⟨S10, .f32⟩
  | .hbm, ⟨43, _⟩ => ⟨S_, .i32⟩
  | .hbm, ⟨44, _⟩ => ⟨S16x80x128x128, .i32⟩
  | .hbm, ⟨45, _⟩ => ⟨S16x80x128x128, .i1⟩
  | .hbm, ⟨46, _⟩ => ⟨S_, .i32⟩
  | .hbm, ⟨47, _⟩ => ⟨S16x80x128x128, .i32⟩
  | .hbm, ⟨48, _⟩ => ⟨S16x80x128x128, .i32⟩
  | .hbm, ⟨49, _⟩ => ⟨S16x80x128x128, .i32⟩
  | .hbm, ⟨50, _⟩ => ⟨S16x80x128x128x1, .i32⟩
  | .hbm, ⟨51, _⟩ => ⟨S16x80x128x128, .f32⟩
  | .hbm, ⟨52, _⟩ => ⟨S_, .f32⟩
  | .hbm, ⟨53, _⟩ => ⟨S_, .i1⟩
  | .hbm, ⟨54, _⟩ => ⟨S16x80x128x128, .f32⟩
  | .hbm, ⟨55, _⟩ => ⟨S16x80x128x128, .f32⟩
  | .hbm, ⟨56, _⟩ => ⟨S16x80x128x128, .f32⟩
  | .hbm, ⟨57, _⟩ => ⟨S_, .f32⟩
  | .hbm, ⟨58, _⟩ => ⟨S16x80x128x128, .f32⟩
  | .hbm, ⟨59, _⟩ => ⟨S16x80x128x128, .i1⟩
  | .hbm, ⟨60, _⟩ => ⟨S16x80x128x128, .f32⟩
  | .hbm, ⟨61, _⟩ => ⟨S_, .f32⟩
  | .hbm, ⟨62, _⟩ => ⟨S16x80x128x128, .f32⟩
  | .hbm, ⟨63, _⟩ => ⟨S16x80x128x128, .f32⟩
  | .hbm, ⟨64, _⟩ => ⟨S16x80x128x128, .f32⟩
  | .hbm, ⟨65, _⟩ => ⟨S16x80x128x128, .f32⟩
  | .hbm, ⟨66, _⟩ => ⟨S16x80x128x128, .f32⟩
  | .hbm, ⟨67, _⟩ => ⟨S16x80x128x128, .f32⟩
  | .hbm, ⟨68, _⟩ => ⟨S16x80x128x128, .f32⟩
  | .hbm, ⟨69, _⟩ => ⟨S16x80x128x128, .f32⟩
  | .hbm, ⟨70, _⟩ => ⟨S16x80x128x128, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S16x80x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_v21 : Ref sig .tc := ⟨.hbm, 39, rfl⟩
abbrev main_cst_8 : Ref sig .tc := ⟨.hbm, 40, rfl⟩
abbrev main_call1_v0 : Ref sig .tc := ⟨.hbm, 41, rfl⟩
abbrev main_v22 : Ref sig .tc := ⟨.hbm, 42, rfl⟩
abbrev main_c_9 : Ref sig .tc := ⟨.hbm, 43, rfl⟩
abbrev main_v23 : Ref sig .tc := ⟨.hbm, 44, rfl⟩
abbrev main_v24 : Ref sig .tc := ⟨.hbm, 45, rfl⟩
abbrev main_c_10 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_11 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_12 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_13 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_14 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩

abbrev nD : Nat := 1
abbrev τ : Topo := Topo.v7x

variable {F : FTy → Type} [FloatOps F]

class Facts₀ : Prop where
  bcast_S_S16x80x128x128 : S_.BroadcastsInDim S16x80x128x128 (![] : Fin 0 → Fin S16x80x128x128.rank)
  bcast_S_S10 : S_.BroadcastsInDim S10 (![] : Fin 0 → Fin S10.rank)
  bcast_S16x80x128x128_S16x80x128x128x1_0_1_2_3 : S16x80x128x128.BroadcastsInDim S16x80x128x128x1 (![0, 1, 2, 3] : Fin 4 → Fin S16x80x128x128x1.rank)
  reducesTo_S10_S_d0 : S10.ReducesTo [0] S_
  h_S_ : 0 < S_.numel
  reducesTo_S16x80x128x128_S_d0_1_2_3 : S16x80x128x128.ReducesTo [0, 1, 2, 3] S_
  scatter_S10_S16x80x128x128x1_S16x80x128x128_n_0_0_4_wf : ScatterDims.WF S10 S16x80x128x128x1 S16x80x128x128 [] [0] [0] 4
  gather_S10_S16x80x128x128x1_S16x80x128x128_n_0_n_n_0_4_1_wf : GatherDims.WF S10 S16x80x128x128x1 S16x80x128x128 [] [0] [] [0] [] 4 ![1]

variable [Facts₀]

def scatter_S10_S16x80x128x128x1_S16x80x128x128_n_0_0_4 : ScatterDims S10 S16x80x128x128x1 S16x80x128x128 where
  updateWindowDims := []
  insertedWindowDims := [0]
  scatterDimsToOperandDims := [0]
  indexVectorDim := 4
  wf := scatter_S10_S16x80x128x128x1_S16x80x128x128_n_0_0_4_wf
def gather_S10_S16x80x128x128x1_S16x80x128x128_n_0_n_n_0_4_1 : GatherDims S10 S16x80x128x128x1 S16x80x128x128 where
  offsetDims := []
  collapsedSliceDims := [0]
  operandBatchingDims := []
  startIndicesBatchingDims := []
  startIndexMap := [0]
  indexVectorDim := 4
  sliceSizes := ![1]
  wf := gather_S10_S16x80x128x128x1_S16x80x128x128_n_0_n_n_0_4_1_wf

class Facts : Prop extends Facts₀ where

variable [Facts]
-- ==== Proof.GhmSpec.lean ====
/-
  The mathematics both programs compute, free of any program: a binary cross-entropy whose elements are weighted by
  the population of the bin their gradient magnitude falls in.

  For one element with prediction `p` and target `g`: its bin is `min 9 (max 0 ⌊10·|p − g|⌋)` as a 32-bit word, and its
  loss term is `log p` where the target is exactly one and `log (1 − p)` elsewhere. Over a finite family of elements,
  `cntV b` counts the elements of bin `b` and `losV b` adds their loss terms. A bin that holds an element gets the weight
  `tot / A b`, an empty one zero; the weights are divided by the number of occupied bins when there is one; the result is
  the weighted sum of the bins' losses over `tot`. Every literal is kept as the binary32 word the programs carry.
-/
import Idealize.ShloMosaic.PureOps.Ideal
import Idealize.ShloMosaic.Lib.ValueIdx

noncomputable section

namespace Cert.Ghm

open Idealize.ShloMosaic

/-- The words `10`, `1`, `0` and the element count `16·80·128·128`, as extended reals. -/
abbrev ten : EReal := Ideal.ofBits .f32 0x41200000#32
abbrev one : EReal := Ideal.ofBits .f32 0x3F800000#32
abbrev zero : EReal := Ideal.ofBits .f32 0x00000000#32
abbrev tot : EReal := Ideal.ofBits .f32 0x4BA00000#32

/-- The bin of one element: the floor of ten times the gradient magnitude, as a signed word, clamped to `[0, 9]`. -/
def binOf (p g : EReal) : BitVec 32 :=
  IntOp.minsi 9#32 (IntOp.maxsi 0#32 (Ideal.fptosi 32 (Ideal.liftRound Int.floor
    (FloatOps.absf (F := Ideal) (φ := .f32) (p - g) * ten))))

/-- The loss term of one element: `log p` at a positive target (`g = 1`), `log (1 − p)` elsewhere. -/
def ell (p g : EReal) : EReal :=
  Ideal.log (if Ideal.cmp .oeq g one = 1#1 then p else one - p)

/-- Every prediction is a real number strictly between zero and one: the domain on which both logarithms are finite. -/
def InDomain {ι : Type} (P : ι → EReal) : Prop := ∀ i, ∃ r : ℝ, P i = (r : EReal) ∧ 0 < r ∧ r < 1

section Sums
variable {ι : Type} [Fintype ι]

/-- How many elements fall in bin `b`. -/
def cntV (P G : ι → EReal) (b : Fin 10) : EReal :=
  ∑ i, if binOf (P i) (G i) = BitVec.ofNat 32 b.val then (1 : EReal) else 0

/-- The sum of the loss terms of the elements of bin `b`. -/
def losV (P G : ι → EReal) (b : Fin 10) : EReal :=
  ∑ i, if binOf (P i) (G i) = BitVec.ofNat 32 b.val then ell (P i) (G i) else 0

end Sums

/-! ## From the ten counts and the ten losses to the scalar -/

/-- Bin `b` holds an element. -/
def occupied (C : Fin 10 → EReal) (b : Fin 10) : BitVec 1 := Ideal.cmp .ogt (C b) zero

/-- The number of occupied bins. -/
def nBins (C : Fin 10 → EReal) : EReal := zero + ∑ b, FloatOps.uitofp (F := Ideal) .f32 (occupied C b)

/-- The weight of a bin before normalisation. -/
def wPer (C A : Fin 10 → EReal) (b : Fin 10) : EReal :=
  if occupied C b = 1#1 then Ideal.div tot (A b) else zero

/-- The weight of a bin. -/
def wFin (C A : Fin 10 → EReal) (b : Fin 10) : EReal :=
  if Ideal.cmp .ogt (nBins C) zero = 1#1 then Ideal.div (wPer C A b) (nBins C) else wPer C A b

/-- The weighted loss. -/
def result (C L A : Fin 10 → EReal) : EReal := Ideal.div (zero + ∑ b, wFin C A b * L b) tot

end Cert.Ghm

end
-- ==== Proof.KTailRun.lean ====
/-
  The kernel program's run, with its result read off the two output arrays the region leaves.

  After the region the host adds the two cores' rows of each [2, 8, 128] array, keeps row 0, lanes 0 … 9 (ten populations,
  ten losses), tests which populations are positive, counts those bins, divides the element count by the accumulated
  counts, zeroes the weights of empty bins, divides by the number of occupied bins when there is one, multiplies by the
  losses, adds up and divides by the element count: the specification's `result` of the ten populations, the ten losses
  and the accumulated counts.
-/
import proofs.«413144_j52561809768998_3_alg».proof.Proof.Gen.KernelIdeal.Frame
import proofs.«413144_j52561809768998_3_alg».proof.Proof.GhmSpec
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Tail

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The population array and the loss array as the region leaves them, at their literal type. -/
def arr2 (c : Dev nD) : S2x8x128.Idx → EReal := (dats (F := Ideal) m 0 c).arrAt 2 cfg0.N
def arr3 (c : Dev nD) : S2x8x128.Idx → EReal := (dats (F := Ideal) m 0 c).arrAt 3 cfg0.N

/-- Lane `b` of row 0, summed over the two cores' rows, of the population array the region leaves. -/
def popOf (c : Dev nD) (b : Fin 10) : EReal :=
  Cert.Ghm.zero + ∑ c' : Fin 2, arr2 m c (ix3 c' (0 : Fin 8) (⟨b.val, by omega⟩ : Fin 128))

/-- Lane `b` of row 0, summed over the two cores' rows, of the loss array the region leaves. -/
def lossOf (c : Dev nD) (b : Fin 10) : EReal :=
  Cert.Ghm.zero + ∑ c' : Fin 2, arr3 m c (ix3 c' (0 : Fin 8) (⟨b.val, by omega⟩ : Fin 128))

/-! ## The host tail's operations read at an index -/

/-- The scalar constants the host tail carries: zero and the element count. -/
private def zS : S_.Idx → EReal := constant (F := Ideal) S_ .f32 0x00000000#32
private def tS : S_.Idx → EReal := constant (F := Ideal) S_ .f32 0x4BA00000#32

/-- A sum over the ten lanes is a sum over their coordinates. -/
private theorem sum_S10 (f : S10.Idx → EReal) : ∑ i : S10.Idx, f i = ∑ b : Fin 10, f (ix1 b) := by
  refine Fintype.sum_equiv ⟨fun i => i 0, fun b => ix1 b, fun i => (eq_ix1 i).symm, fun _ => rfl⟩ _ _ fun i => ?_
  exact congrArg f (eq_ix1 i)

/-- The two cores' rows added up, at row `r`, lane `l`. -/
private theorem reduceRows_apply (A : S2x8x128.Idx → EReal) (z : S_.Idx → EReal) (r : Fin 8) (l : Fin 128) :
    Host.reduceAdd (F := Ideal) (φ := .f32) A z reducesTo_S2x8x128_S8x128_d0 h_S_ (ix2 r l)
      = z ix0 + ∑ c' : Fin 2, A (ix3 c' r l) := by
  have h : S2x8x128.Reduces [0] S8x128 := by decide
  simp only [Host.reduceAdd, Ideal.hostReduceAdd_def]
  rw [Ideal.hostReduceAdd_single reducesTo_S2x8x128_S8x128_d0 h]
  refine congrArg₂ (· + ·) (congrArg z (eq_ix0 _)) ?_
  show ∑ k : Fin 2, A (h.lift (ix2 r l) k) = _
  refine Finset.sum_congr rfl fun k _ => congrArg A ?_
  funext a
  match a with
  | ⟨0, _⟩ => exact Fin.ext rfl
  | ⟨1, _⟩ => exact Fin.ext rfl
  | ⟨2, _⟩ => exact Fin.ext rfl

/-- Row 0, lanes 0 … 9 kept. -/
private theorem sliceRow_apply (Y : S8x128.Idx → EReal) (b : Fin 10) :
    extractStridedSlice S1x10 ![0, 0] Y slices_S8x128_S1x10_0_0 (ix2 (0 : Fin 1) b)
      = Y (ix2 (0 : Fin 8) (⟨b.val, by omega⟩ : Fin 128)) := by
  refine extractStridedSlice_apply _ Y _ _ _ fun a => ?_
  match a with
  | ⟨0, _⟩ => rfl
  | ⟨1, _⟩ => exact (Nat.zero_add _).symm

/-- The unit row dropped. -/
private theorem dropRow_apply (Y : S1x10.Idx → EReal) (b : Fin 10) :
    shapeCast S10 Y shapeCasts_S1x10_S10 (ix1 b) = Y (ix2 (0 : Fin 1) b) := by
  rw [shapeCast_dropUnit_apply ![10] Y shapeCasts_S1x10_S10 (ix1 b)]
  refine congrArg Y ?_
  funext a
  match a with
  | ⟨0, _⟩ => rfl
  | ⟨1, _⟩ => rfl

/-- A scalar broadcast over the ten lanes reads the scalar. -/
private theorem bcast_apply {α : Type} (z : S_.Idx → α) (i : S10.Idx) :
    broadcastInDim S10 ![] bcast_S_S10 z i = z ix0 :=
  broadcastInDim_apply _ bcast_S_S10 z i ix0 (fun a => a.elim0)

/-- The ten lanes added up. -/
private theorem reduceLanes_apply (Y : S10.Idx → EReal) (z : S_.Idx → EReal) (j : S_.Idx) :
    Host.reduceAdd (F := Ideal) (φ := .f32) Y z reducesTo_S10_S_d0 h_S_ j = z ix0 + ∑ b : Fin 10, Y (ix1 b) := by
  simp only [Host.reduceAdd, Ideal.hostReduceAdd_def]
  rw [Ideal.hostReduceAdd_total reducesTo_S10_S_d0 (fun b => b.elim0) Y _ j, sum_S10]
  exact congrArg (· + _) (congrArg z (eq_ix0 _))

/-! ## The host tail, stage by stage -/

/-- Row 0, lanes 0 … 9 of the two cores' rows of an output array added up. -/
private def laneSum (A : S2x8x128.Idx → EReal) : S10.Idx → EReal :=
  shapeCast S10 (extractStridedSlice S1x10 ![0, 0]
    (Host.reduceAdd (F := Ideal) (φ := .f32) A zS reducesTo_S2x8x128_S8x128_d0 h_S_) slices_S8x128_S1x10_0_0) shapeCasts_S1x10_S10

private theorem laneSum_apply (A : S2x8x128.Idx → EReal) (b : Fin 10) :
    laneSum A (ix1 b) = Cert.Ghm.zero + ∑ c' : Fin 2, A (ix3 c' (0 : Fin 8) (⟨b.val, by omega⟩ : Fin 128)) := by
  unfold laneSum
  rw [dropRow_apply, sliceRow_apply, reduceRows_apply]
  rfl

/-- Which of the ten populations are positive. -/
private def occV (A2 : S2x8x128.Idx → EReal) : S10.Idx → BitVec 1 :=
  cmpf (F := Ideal) (φ := .f32) .ogt (laneSum A2) (broadcastInDim S10 ![] bcast_S_S10 zS)

/-- How many are. -/
private def nOccV (A2 : S2x8x128.Idx → EReal) : S_.Idx → EReal :=
  Host.reduceAdd (F := Ideal) (φ := .f32) (uitofp (F := Ideal) .f32 (occV A2)) zS reducesTo_S10_S_d0 h_S_

/-- The weights before normalisation. -/
private def wPerV (A2 : S2x8x128.Idx → EReal) (X : S10.Idx → EReal) : S10.Idx → EReal :=
  select (occV A2) (Host.divf (F := Ideal) (φ := .f32) (broadcastInDim S10 ![] bcast_S_S10 tS) X) (broadcastInDim S10 ![] bcast_S_S10 zS)

/-- The weights. -/
private def wFinV (A2 : S2x8x128.Idx → EReal) (X : S10.Idx → EReal) : S10.Idx → EReal :=
  select (broadcastInDim S10 ![] bcast_S_S10 (cmpf (F := Ideal) (φ := .f32) .ogt (nOccV A2) zS))
    (Host.divf (F := Ideal) (φ := .f32) (wPerV A2 X) (broadcastInDim S10 ![] bcast_S_S10 (nOccV A2))) (wPerV A2 X)

/-- The weighted loss. -/
private def tailV (A2 A3 : S2x8x128.Idx → EReal) (X : S10.Idx → EReal) : S_.Idx → EReal :=
  Host.divf (F := Ideal) (φ := .f32)
    (Host.reduceAdd (F := Ideal) (φ := .f32) (mulf (F := Ideal) (φ := .f32) (wFinV A2 X) (laneSum A3)) zS reducesTo_S10_S_d0 h_S_) tS

set_option maxHeartbeats 1000000 in
/-- The result buffer after the host tail, from any contents of the buffers before it: the stages composed. -/
private theorem tail_after (W : Valuation τ sig (Elt Ideal)) :
    StableHlo.after (List.flatten [hostOps1, hostOps1_1, hostOps1_2, hostOps1_3, hostOps1_4]) W (Proc.devRef .tc main_v22)
      = tailV (W (Proc.devRef .tc main_v2_0)) (W (Proc.devRef .tc main_v2_1)) (W (Proc.devRef .tc main_arg2)) := by
  simp only [hostOps1, hostOps1_1, hostOps1_2, hostOps1_3, hostOps1_4, List.flatten_cons, List.flatten_nil, List.append_nil, List.cons_append, List.nil_append]
  after_results
  rfl

section Stages

variable (A2 A3 : S2x8x128.Idx → EReal) (X : S10.Idx → EReal)

private theorem occV_apply (b : Fin 10) :
    occV A2 (ix1 b) = Cert.Ghm.occupied (fun b => laneSum A2 (ix1 b)) b := rfl

private theorem nOccV_apply (j : S_.Idx) : nOccV A2 j = Cert.Ghm.nBins (fun b => laneSum A2 (ix1 b)) := by
  unfold nOccV
  rw [reduceLanes_apply]
  rfl

private theorem wPerV_apply (b : Fin 10) :
    wPerV A2 X (ix1 b) = Cert.Ghm.wPer (fun b => laneSum A2 (ix1 b)) (fun b => X (ix1 b)) b := rfl

private theorem wFinV_apply (b : Fin 10) :
    wFinV A2 X (ix1 b) = Cert.Ghm.wFin (fun b => laneSum A2 (ix1 b)) (fun b => X (ix1 b)) b := by
  show Scalar.select (broadcastInDim S10 ![] bcast_S_S10 (cmpf (F := Ideal) (φ := .f32) .ogt (nOccV A2) zS) (ix1 b))
      (Ideal.div (wPerV A2 X (ix1 b)) (broadcastInDim S10 ![] bcast_S_S10 (nOccV A2) (ix1 b))) (wPerV A2 X (ix1 b)) = _
  rw [bcast_apply, bcast_apply, wPerV_apply]
  show (if Ideal.cmp .ogt (nOccV A2 ix0) Cert.Ghm.zero = 1 then Ideal.div _ (nOccV A2 ix0) else _) = _
  rw [nOccV_apply]
  rfl

private theorem tailV_apply (j : S_.Idx) :
    tailV A2 A3 X j
      = Cert.Ghm.result (fun b => laneSum A2 (ix1 b)) (fun b => laneSum A3 (ix1 b)) (fun b => X (ix1 b)) := by
  show Ideal.div (Host.reduceAdd (F := Ideal) (φ := .f32) (mulf (F := Ideal) (φ := .f32) (wFinV A2 X) (laneSum A3)) zS
      reducesTo_S10_S_d0 h_S_ j) Cert.Ghm.tot = _
  rw [reduceLanes_apply]
  unfold Cert.Ghm.result
  refine congrArg (fun s => Ideal.div (Cert.Ghm.zero + s) Cert.Ghm.tot) (Finset.sum_congr rfl fun b _ => ?_)
  show wFinV A2 X (ix1 b) * laneSum A3 (ix1 b) = _
  rw [wFinV_apply]

end Stages

/-! ## The run -/

/-- The result buffer after the host tail: the weighted loss of the populations and losses the region leaves. -/
private theorem read_v22 (c : Dev nD) :
    Pipeline.afterTail₀ cfgs (dats (F := Ideal) m) 0 (V0 m) [hostOps1, hostOps1_1, hostOps1_2, hostOps1_3, hostOps1_4] c main_v22
      = (fun _ => Cert.Ghm.result (popOf m c) (lossOf m c)
              (fun b => (m ((c.tc : Thread nD τ).loc main_arg2) : S10.Idx → EReal) (ix1 b))) := by
  unfold Pipeline.afterTail₀
  rw [tail_after]
  have e2 : Pipeline.withArrays (cfgs 0).spec c (V0 m c) (fun w => (dats (F := Ideal) m 0 c).arrAt w (cfgs 0).N)
      (Proc.devRef .tc main_v2_0) = arr2 m c :=
    Pipeline.withArrays_arr spec0 launch0.win.arr_inj c _ _ 2
  have e3 : Pipeline.withArrays (cfgs 0).spec c (V0 m c) (fun w => (dats (F := Ideal) m 0 c).arrAt w (cfgs 0).N)
      (Proc.devRef .tc main_v2_1) = arr3 m c :=
    Pipeline.withArrays_arr spec0 launch0.win.arr_inj c _ _ 3
  have ea : Pipeline.withArrays (cfgs 0).spec c (V0 m c) (fun w => (dats (F := Ideal) m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  rw [e2, e3, ea]
  funext j
  rw [tailV_apply]
  have hp : popOf m c = fun b => laneSum (arr2 m c) (ix1 b) := funext fun b => (laneSum_apply _ b).symm
  have hl : lossOf m c = fun b => laneSum (arr3 m c) (ix1 b) := funext fun b => (laneSum_apply _ b).symm
  rw [hp, hl]

/-- Every weakly fair execution of the kernel program terminates with the result at the weighted loss of the ten
    populations and losses read off the output arrays, and the arguments unchanged. -/
theorem run_tail :
    θ_run (defs (F := Ideal)) (onTc (τ := τ) (main (F := Ideal))) ⟨m, fun _ => 0, ρ⟩ (fun r => ∀ c : Dev nD,
      r.2.mem ((c.tc : Thread nD τ).loc main_v22)
          = (fun _ => Cert.Ghm.result (popOf m c) (lossOf m c)
              (fun b => (m ((c.tc : Thread nD τ).loc main_arg2) : S10.Idx → EReal) (ix1 b)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v22 (Pipeline.mem_restRefs_of main_v22 (by decide) (by decide))).trans (read_v22 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tail

end
-- ==== Proof.KAcc.lean ====
/-
  What one grid point adds to the two output blocks, as plain vector terms of the point's two input blocks.

  A block of 4096 × 128 predictions `x0` and targets `x1` has, element by element, a bin `bins` and a loss term `base`.
  For each of the bins 0 … 8 the block's population `cntB` is taken on the matrix unit (eight equal rows of ones against the
  0/1 indicator, the eight rows added, an eighth of that, the lanes added) and its loss `lossB` by adding the selected loss
  terms over rows, then over lanes. The last bin is what is left of the block: `524288` less the nine populations, and the
  block's whole loss less the nine losses. Quantity `b` is laid at row 0, lane `b` of a 1 × 8 × 128 block (`spread`),
  and the ten layers are added up from zero: `accC` for the populations, `accL` for the losses.
-/
import proofs.«413144_j52561809768998_3_alg».proof.KernelIdeal

noncomputable section

namespace Cert.KernelIdeal.Acc

open Idealize.ShloMosaic Cert.KernelIdeal

variable {F : FTy → Type} [FloatOps F] [Facts]
open Facts₀

/-- The predictions and the targets of a block, as the body reads them. -/
def pblk (x : Vec F S4096x128 .f32) : FVec F S4096x128 .f32 := shapeCast S4096x128 x shapeCasts_S4096x128_S4096x128

/-- The bin of every element of a block. -/
def bins (x0 x1 : Vec F S4096x128 .f32) : IVec S4096x128 32 :=
  minsi (broadcast S4096x128 (9#32 : BitVec 32)) (maxsi (broadcast S4096x128 (0#32 : BitVec 32))
    (fptosi 32 (floor (mulf (absf (subf (pblk x0) (pblk x1))) (broadcast S4096x128 (Scalar.ofBits .f32 0x41200000#32))))))

/-- The loss term of every element of a block. -/
def base (x0 x1 : Vec F S4096x128 .f32) : FVec F S4096x128 .f32 :=
  log (select (cmpf .oeq (pblk x1) (broadcast S4096x128 (Scalar.ofBits .f32 0x3F800000#32))) (pblk x0)
    (subf (broadcast S4096x128 (Scalar.ofBits .f32 0x3F800000#32)) (pblk x0)))

/-- The indicator of bin `b`. -/
def mask (x0 x1 : Vec F S4096x128 .f32) (b : BitVec 32) : IVec S4096x128 1 :=
  cmpi .eq (bins x0 x1) (broadcast S4096x128 b)

/-- Eight rows of ones. -/
def ones : FVec F S8x4096 .bf16 := broadcast S8x4096 (Scalar.ofBits .bf16 0x3F80#16)

/-- The sum over the 128 lanes of one row. -/
def laneSum (v : FVec F S1x128 .f32) : FVec F S1x1 .f32 :=
  shapeCast S1x1 (multiReduction .add [1] S1 v 0x00000000#32 reduces_S1x128_S1 (.inl rfl) rfl) shapeCasts_S1_S1x1

/-- The population of bin `b` in the block. -/
def cntB (x0 x1 : Vec F S4096x128 .f32) (b : BitVec 32) : FVec F S1x1 .f32 :=
  laneSum (mulf (shapeCast S1x128 (multiReduction .add [0] S128
      (matmul dot_S8x4096_S4096x128_S8x128_1_0_0_1_n_n none (ones (F := F))
        (truncf .bf16 (sitofp .f32 (extui 32 (mask x0 x1 b) natLt_1_32)) bitsLt_bf16_f32)
        (constant S8x128 .f32 0x00000000#32))
      0x00000000#32 reduces_S8x128_S128 (.inl rfl) rfl) shapeCasts_S128_S1x128)
    (broadcast S1x128 (Scalar.ofBits .f32 0x3E000000#32)))

/-- The sum of all 4096 × 128 entries: over the rows, then over the lanes. -/
def redAll (v : FVec F S4096x128 .f32) : FVec F S1x1 .f32 :=
  laneSum (shapeCast S1x128 (multiReduction .add [0] S128 v 0x00000000#32 reduces_S4096x128_S128 (.inl rfl) rfl) shapeCasts_S128_S1x128)

/-- The loss of bin `b` in the block. -/
def lossB (x0 x1 : Vec F S4096x128 .f32) (b : BitVec 32) : FVec F S1x1 .f32 :=
  redAll (select (mask x0 x1 b) (base x0 x1) (broadcast S4096x128 (Scalar.ofBits .f32 0x00000000#32)))

/-- One at row 0, lane `b`; zero elsewhere. -/
def pos (b : BitVec 32) : FVec F S1x8x128 .f32 :=
  sitofp .f32 (extui 32 (andi
    (cmpi .eq (iota .tc S1x8x128 32 [1] iota_S1x8x128_d1_w32) (broadcast S1x8x128 (0#32 : BitVec 32)))
    (cmpi .eq (iota .tc S1x8x128 32 [2] iota_S1x8x128_d2_w32) (broadcast S1x8x128 b))) natLt_1_32)

/-- A scalar laid at row 0, lane `b`. -/
def spread (b : BitVec 32) (s : FVec F S1x1 .f32) : FVec F S1x8x128 .f32 :=
  mulf (pos b) (broadcastTo S1x8x128 (shapeCast S1x1x1 s shapeCasts_S1x1_S1x1x1) broadcasts_S1x1x1_S1x8x128)

def z3 : FVec F S1x8x128 .f32 := broadcast S1x8x128 (Scalar.ofBits .f32 0x00000000#32)
def z1 : FVec F S1x1 .f32 := broadcast S1x1 (Scalar.ofBits .f32 0x00000000#32)

/-- The bins taken by a masked pass. -/
def firstNine : List (BitVec 32) := [0#32, 1#32, 2#32, 3#32, 4#32, 5#32, 6#32, 7#32, 8#32]

/-- The nine populations laid out and added up, and their plain sum. -/
def cntLayers (x0 x1 : Vec F S4096x128 .f32) : FVec F S1x8x128 .f32 :=
  firstNine.foldl (fun acc b => addf acc (spread b (cntB x0 x1 b))) z3
def cntSum (x0 x1 : Vec F S4096x128 .f32) : FVec F S1x1 .f32 :=
  firstNine.foldl (fun acc b => addf acc (cntB x0 x1 b)) z1

/-- The nine losses laid out and added up, and their plain sum. -/
def lossLayers (x0 x1 : Vec F S4096x128 .f32) : FVec F S1x8x128 .f32 :=
  firstNine.foldl (fun acc b => addf acc (spread b (lossB x0 x1 b))) z3
def lossSum (x0 x1 : Vec F S4096x128 .f32) : FVec F S1x1 .f32 :=
  firstNine.foldl (fun acc b => addf acc (lossB x0 x1 b)) z1

/-- What the point adds to the population block: the nine layers and the last bin's, `524288` less the nine. -/
def accC (x0 x1 : Vec F S4096x128 .f32) : FVec F S1x8x128 .f32 :=
  addf (cntLayers x0 x1) (spread 9#32 (subf (broadcast S1x1 (Scalar.ofBits .f32 0x49000000#32)) (cntSum x0 x1)))

/-- What the point adds to the loss block: the nine layers and the last bin's, the whole loss less the nine. -/
def accL (x0 x1 : Vec F S4096x128 .f32) : FVec F S1x8x128 .f32 :=
  addf (lossLayers x0 x1) (spread 9#32 (subf (redAll (base x0 x1)) (lossSum x0 x1)))

end Cert.KernelIdeal.Acc

end
-- ==== Proof.KBodyForm.lean ====
/-
  What the body leaves in the two output blocks at one grid point, as a function of the point's input blocks.

  At a point that does not start a core's run (the second grid coordinate is not zero) each output block ends at what it
  held before plus the point's addend: the populations `accC` for the first output, the losses `accL` for the second.
  At a point that starts a run the block is first cleared, so it ends at zero plus the addend. The addends are the terms of
  the module that defines them; here the stored values the run found are shown to be those terms.
-/
import proofs.«413144_j52561809768998_3_alg».proof.Proof.Gen.KernelIdeal.Frame
import proofs.«413144_j52561809768998_3_alg».proof.Proof.KAcc
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic Idealize.SL.Sem
open Cert.KernelIdeal Cert.KernelIdeal.Gen Cert.KernelIdeal.Acc

variable {F : FTy → Type} [FloatOps F]
open Facts₀

theorem off3 : (![0, 0, 0] : Fin 3 → Nat) = fun _ => 0 := by funext a; fin_cases a <;> rfl
theorem off2 : (![0, 0] : Fin 2 → Nat) = fun _ => 0 := by funext a; fin_cases a <;> rfl

set_option maxHeartbeats 2000000 in
/-- A later point of a run: the population block ends at its contents plus the point's populations. -/
theorem out_B_2 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 x1 : Vec F S4096x128 .f32) (xo2 xo3 : Vec F S1x8x128 .f32) :
    out0_B_2 c i arg2 harg2 arg3 harg3 arg4 harg4 arg5 harg5 hc0 x0 x1 xo2 xo3
      = addf (shapeCast S1x8x128 xo2 Facts₀.shapeCasts_S1x8x128_S1x8x128) (accC x0 x1) := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero off3]
  simp only [View.readAt_eq_ld, harg2.read_unread, harg3.read_unread, harg4.read_unread, harg5.read_unread,
    View.ld_unit_zero (S := S4096x128) off2, View.ld_unit_zero (S := S1x8x128) off3]
  rfl

set_option maxHeartbeats 2000000 in
/-- A later point of a run: the loss block ends at its contents plus the point's losses. -/
theorem out_B_3 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 x1 : Vec F S4096x128 .f32) (xo2 xo3 : Vec F S1x8x128 .f32) :
    out0_B_3 c i arg2 harg2 arg3 harg3 arg4 harg4 arg5 harg5 hc0 x0 x1 xo2 xo3
      = addf (shapeCast S1x8x128 xo3 Facts₀.shapeCasts_S1x8x128_S1x8x128) (accL x0 x1) := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero off3]
  simp only [View.readAt_eq_ld, harg2.read_unread, harg3.read_unread, harg4.read_unread, harg5.read_unread,
    View.ld_unit_zero (S := S4096x128) off2, View.ld_unit_zero (S := S1x8x128) off3]
  rfl

set_option maxHeartbeats 2000000 in
/-- The first point of a run: the population block is cleared, then the point's populations are added. -/
theorem out_A_2 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 x1 : Vec F S4096x128 .f32) :
    out0_A_2 c i arg2 harg2 arg3 harg3 arg4 harg4 arg5 harg5 hc0 x0 x1
      = addf (shapeCast S1x8x128 (z3 (F := F)) Facts₀.shapeCasts_S1x8x128_S1x8x128) (accC x0 x1) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x8x128) off3]
  simp only [View.readAt_eq_ld, harg2.read_unread, harg3.read_unread, harg4.read_unread, harg5.read_unread,
    View.readCov_unit_zero (S := S1x8x128) _ off3,
    View.ld_unit_zero (S := S4096x128) off2, View.ld_unit_zero (S := S1x8x128) off3]
  rfl

set_option maxHeartbeats 2000000 in
/-- The first point of a run: the loss block is cleared, then the point's losses are added. -/
theorem out_A_3 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 x1 : Vec F S4096x128 .f32) :
    out0_A_3 c i arg2 harg2 arg3 harg3 arg4 harg4 arg5 harg5 hc0 x0 x1
      = addf (shapeCast S1x8x128 (z3 (F := F)) Facts₀.shapeCasts_S1x8x128_S1x8x128) (accL x0 x1) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x8x128) off3]
  simp only [View.readAt_eq_ld, harg2.read_unread, harg3.read_unread, harg4.read_unread, harg5.read_unread,
    View.readCov_unit_zero (S := S1x8x128) _ off3,
    View.ld_unit_zero (S := S4096x128) off2, View.ld_unit_zero (S := S1x8x128) off3]
  rfl

end Cert.KernelIdeal.Body

end
-- ==== Proof.KBodyAt.lean ====
/-
  The body's effect on one entry of an output block, on the extended reals: at a later point of a run the entry's old value
  plus the addend's entry, at the first point of a run zero plus the addend's entry.
-/
import proofs.«413144_j52561809768998_3_alg».proof.Proof.KBodyForm
import Idealize.ShloMosaic.PureOps.Ideal.Laws

set_option maxRecDepth 16384

noncomputable section

namespace Cert.KernelIdeal.Body

open Idealize.ShloMosaic Idealize.ShloMosaic.TcCoe Idealize.SL.Sem
open Cert.KernelIdeal Cert.KernelIdeal.Gen Cert.KernelIdeal.Acc

-- the addends stay folded here: nothing below looks inside them
attribute [local irreducible] Acc.accC Acc.accL

/-- The cleared block holds zero everywhere. -/
theorem z3_apply (y : S1x8x128.Idx) : (z3 (F := Ideal) : S1x8x128.Idx → EReal) y = 0 := Ideal.ofBits_zero_f32

/-- A later point: an entry of the population block is its old value plus the addend's entry. -/
theorem out_B_2_apply (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 x1 : Vec Ideal S4096x128 .f32) (xo2 xo3 : Vec Ideal S1x8x128 .f32) (y : S1x8x128.Idx) :
    out0_B_2 (F := Ideal) c i arg2 harg2 arg3 harg3 arg4 harg4 arg5 harg5 hc0 x0 x1 xo2 xo3 y = xo2 y + accC (F := Ideal) x0 x1 y := by
  have h := congrFun (out_B_2 (F := Ideal) c i arg2 harg2 arg3 harg3 arg4 harg4 arg5 harg5 hc0 x0 x1 xo2 xo3) y
  rw [shapeCast_self] at h
  exact h.trans (ValueIdx.addf_apply _ _ _)

/-- A later point: an entry of the loss block is its old value plus the addend's entry. -/
theorem out_B_3_apply (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 x1 : Vec Ideal S4096x128 .f32) (xo2 xo3 : Vec Ideal S1x8x128 .f32) (y : S1x8x128.Idx) :
    out0_B_3 (F := Ideal) c i arg2 harg2 arg3 harg3 arg4 harg4 arg5 harg5 hc0 x0 x1 xo2 xo3 y = xo3 y + accL (F := Ideal) x0 x1 y := by
  have h := congrFun (out_B_3 (F := Ideal) c i arg2 harg2 arg3 harg3 arg4 harg4 arg5 harg5 hc0 x0 x1 xo2 xo3) y
  rw [shapeCast_self] at h
  exact h.trans (ValueIdx.addf_apply _ _ _)

/-- A first point: an entry of the population block is zero plus the addend's entry. -/
theorem out_A_2_apply (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 x1 : Vec Ideal S4096x128 .f32) (y : S1x8x128.Idx) :
    out0_A_2 (F := Ideal) c i arg2 harg2 arg3 harg3 arg4 harg4 arg5 harg5 hc0 x0 x1 y = 0 + accC (F := Ideal) x0 x1 y := by
  have h := congrFun (out_A_2 (F := Ideal) c i arg2 harg2 arg3 harg3 arg4 harg4 arg5 harg5 hc0 x0 x1) y
  rw [shapeCast_self] at h
  exact h.trans ((ValueIdx.addf_apply _ _ _).trans (congrArg (· + accC (F := Ideal) x0 x1 y) (z3_apply y)))

/-- A first point: an entry of the loss block is zero plus the addend's entry. -/
theorem out_A_3_apply (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 x1 : Vec Ideal S4096x128 .f32) (y : S1x8x128.Idx) :
    out0_A_3 (F := Ideal) c i arg2 harg2 arg3 harg3 arg4 harg4 arg5 harg5 hc0 x0 x1 y = 0 + accL (F := Ideal) x0 x1 y := by
  have h := congrFun (out_A_3 (F := Ideal) c i arg2 harg2 arg3 harg3 arg4 harg4 arg5 harg5 hc0 x0 x1) y
  rw [shapeCast_self] at h
  exact h.trans ((ValueIdx.addf_apply _ _ _).trans (congrArg (· + accL (F := Ideal) x0 x1 y) (z3_apply y)))

end Cert.KernelIdeal.Body

end
-- ==== Proof.KFold.lean ====
/-
  What the two output arrays hold after the region: each core's block is the sum of its twenty points' addends.

  The grid is 2 × 20. Point `20·c' + s` works on core `c'`'s block of each output: the first point of a core's run (`s = 0`)
  clears the block and adds its addend, every later one adds its addend to what the point before left, and the block is
  written back to row `c'` of the [2, 8, 128] array after the twentieth. So entry `(c', r, l)` of the array ends at the sum over
  `s < 20` of point `20·c' + s`'s addend at `(0, r, l)`.
-/
import proofs.«413144_j52561809768998_3_alg».proof.Proof.KBodyAt
import Idealize.ShloMosaic.Lib.ValueIdx
import Idealize.ShloMosaic.Lib.Pipeline.Value

set_option maxRecDepth 16384

noncomputable section

namespace Cert.KernelIdeal.Fold

open Idealize.ShloMosaic Idealize.ShloMosaic.TcCoe Idealize.ShloMosaic.ValueIdx Idealize.SL.Sem
open Cert.KernelIdeal Cert.KernelIdeal.Gen Cert.KernelIdeal.Acc

-- the addends stay folded here: nothing below looks inside them
attribute [local irreducible] Acc.accC Acc.accL

variable (m : (ℓ : Loc nD τ sig) → Buf (Elt Ideal) ℓ)

/-- Point `n`'s population addend (zero past the grid's forty points). -/
def addC (c : Dev nD) (n : ℕ) : S1x8x128.Idx → EReal :=
  if h : n < cfg0.N then accC (F := Ideal) (iblk m c 0 ⟨n, h⟩) (iblk m c 1 ⟨n, h⟩) else fun _ => 0

/-- Point `n`'s loss addend (zero past the grid's forty points). -/
def addL (c : Dev nD) (n : ℕ) : S1x8x128.Idx → EReal :=
  if h : n < cfg0.N then accL (F := Ideal) (iblk m c 0 ⟨n, h⟩) (iblk m c 1 ⟨n, h⟩) else fun _ => 0

/-! ## The blocks after each point, as folds of the addends -/

/-- The population block after point `n`. -/
def blkC (c : Dev nD) (n : ℕ) (h : n < cfg0.N) : S1x8x128.Idx → EReal := (outsAt0 (F := Ideal) m c n h).1

/-- The loss block after point `n`. -/
def blkL (c : Dev nD) (n : ℕ) (h : n < cfg0.N) : S1x8x128.Idx → EReal := (outsAt0 (F := Ideal) m c n h).2

/-- At the first point of a run the population block is zero plus the point's addend. -/
theorem blkC_first (c : Dev nD) (n : ℕ) (h : n < cfg0.N) (h0 : n % 20 = 0) :
    blkC m c n h = fun y => 0 + addC m c n y := by
  unfold blkC
  rw [outsAt0_A m c ⟨n, h⟩ h0]; dsimp only
  funext y
  unfold addC
  rw [dif_pos h]
  exact Body.out_A_2_apply c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) ((hcond0_0 ⟨n, h⟩).mpr h0)
    (iblk m c 0 ⟨n, h⟩) (iblk m c 1 ⟨n, h⟩) y

/-- At the first point of a run the loss block is zero plus the point's addend. -/
theorem blkL_first (c : Dev nD) (n : ℕ) (h : n < cfg0.N) (h0 : n % 20 = 0) :
    blkL m c n h = fun y => 0 + addL m c n y := by
  unfold blkL
  rw [outsAt0_A m c ⟨n, h⟩ h0]; dsimp only
  funext y
  unfold addL
  rw [dif_pos h]
  exact Body.out_A_3_apply c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) ((hcond0_0 ⟨n, h⟩).mpr h0)
    (iblk m c 0 ⟨n, h⟩) (iblk m c 1 ⟨n, h⟩) y

/-- At a later point of a run the population block is what the point before left plus the point's addend. -/
theorem blkC_step (c : Dev nD) (n : ℕ) (h : n + 1 < cfg0.N) (h0 : ¬(n + 1) % 20 = 0) :
    blkC m c (n + 1) h = fun y => blkC m c n (Nat.lt_of_succ_lt h) y + addC m c (n + 1) y := by
  unfold blkC
  rw [outsAt0_B m c ⟨n + 1, h⟩ h0]; dsimp only
  funext y
  unfold addC
  rw [dif_pos h]
  exact Body.out_B_2_apply c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (fun hc => h0 ((hcond0_0 ⟨n + 1, h⟩).mp hc))
    (iblk m c 0 ⟨n + 1, h⟩) (iblk m c 1 ⟨n + 1, h⟩)
    (outsAt0 (F := Ideal) m c n (Nat.lt_of_succ_lt h)).1 (outsAt0 (F := Ideal) m c n (Nat.lt_of_succ_lt h)).2 y

/-- At a later point of a run the loss block is what the point before left plus the point's addend. -/
theorem blkL_step (c : Dev nD) (n : ℕ) (h : n + 1 < cfg0.N) (h0 : ¬(n + 1) % 20 = 0) :
    blkL m c (n + 1) h = fun y => blkL m c n (Nat.lt_of_succ_lt h) y + addL m c (n + 1) y := by
  unfold blkL
  rw [outsAt0_B m c ⟨n + 1, h⟩ h0]; dsimp only
  funext y
  unfold addL
  rw [dif_pos h]
  exact Body.out_B_3_apply c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (fun hc => h0 ((hcond0_0 ⟨n + 1, h⟩).mp hc))
    (iblk m c 0 ⟨n + 1, h⟩) (iblk m c 1 ⟨n + 1, h⟩)
    (outsAt0 (F := Ideal) m c n (Nat.lt_of_succ_lt h)).1 (outsAt0 (F := Ideal) m c n (Nat.lt_of_succ_lt h)).2 y

/-- At the last point of a run the population block is the sum of the run's twenty addends. -/
theorem blkC_last (c : Dev nD) (t : ℕ) (ht : t < cfg0.N) (h19 : t % 20 = 19) (y : S1x8x128.Idx) :
    blkC m c t ht y = ∑ s ∈ Finset.range 20, addC m c (20 * (t / 20) + s) y := by
  have h' : 20 * (t / 20) + t % 20 < cfg0.N := by rw [Nat.div_add_mod]; exact ht
  rw [Pipeline.eq_accAt_of_mod (blkC m c) 20 (fun n _ => fun y => 0 + addC m c n y)
    (fun n _ acc => fun y => acc y + addC m c n y) (blkC_first m c) (blkC_step m c) (by omega) t ht h',
    Pipeline.accAt_add_apply (fun n _ => fun y => 0 + addC m c n y) (fun n _ acc => fun y => acc y + addC m c n y)
      (fun _ => 0) (addC m c) (20 * (t / 20)) 19 (fun _ _ => rfl) (fun _ _ _ _ _ _ => rfl) (t % 20) (by omega) h' y,
    h19, zero_add]

/-- At the last point of a run the loss block is the sum of the run's twenty addends. -/
theorem blkL_last (c : Dev nD) (t : ℕ) (ht : t < cfg0.N) (h19 : t % 20 = 19) (y : S1x8x128.Idx) :
    blkL m c t ht y = ∑ s ∈ Finset.range 20, addL m c (20 * (t / 20) + s) y := by
  have h' : 20 * (t / 20) + t % 20 < cfg0.N := by rw [Nat.div_add_mod]; exact ht
  rw [Pipeline.eq_accAt_of_mod (blkL m c) 20 (fun n _ => fun y => 0 + addL m c n y)
    (fun n _ acc => fun y => acc y + addL m c n y) (blkL_first m c) (blkL_step m c) (by omega) t ht h',
    Pipeline.accAt_add_apply (fun n _ => fun y => 0 + addL m c n y) (fun n _ acc => fun y => acc y + addL m c n y)
      (fun _ => 0) (addL m c) (20 * (t / 20)) 19 (fun _ _ => rfl) (fun _ _ _ _ _ _ => rfl) (t % 20) (by omega) h' y,
    h19, zero_add]

/-! ## From the blocks to the arrays -/

/-- Where the points put their population blocks: point `t`'s is row `t / 20` of the array, whole on the other two axes. -/
theorem idxC : ∀ t : Fin cfg0.N, win0_2.index t (0 : Fin 3) = t.val / 20 ∧ win0_2.index t (1 : Fin 3) = 0
    ∧ win0_2.index t (2 : Fin 3) = 0 :=
  (by decide +kernel : ∀ t : Fin grid0.N, win0_2.index t (0 : Fin 3) = t.val / 20 ∧ win0_2.index t (1 : Fin 3) = 0
    ∧ win0_2.index t (2 : Fin 3) = 0)

/-- Where the points put their loss blocks: point `t`'s is row `t / 20` of the array, whole on the other two axes. -/
theorem idxL : ∀ t : Fin cfg0.N, win0_3.index t (0 : Fin 3) = t.val / 20 ∧ win0_3.index t (1 : Fin 3) = 0
    ∧ win0_3.index t (2 : Fin 3) = 0 :=
  (by decide +kernel : ∀ t : Fin grid0.N, win0_3.index t (0 : Fin 3) = t.val / 20 ∧ win0_3.index t (1 : Fin 3) = 0
    ∧ win0_3.index t (2 : Fin 3) = 0)

/-- A run's sum depends on the run and on the entry only. -/
theorem sum_congr_idx (M : ℕ → S1x8x128.Idx → EReal) (q q' : ℕ) (y y' : S1x8x128.Idx) (hq : q = q') (hy : y = y') :
    ∑ s ∈ Finset.range 20, M (20 * q + s) y = ∑ s ∈ Finset.range 20, M (20 * q' + s) y' := by
  subst hq hy; rfl

/-- The population array the region leaves: entry `(c', r, l)` is the sum of core `c'`'s twenty addends at `(0, r, l)`. -/
def arrC (c : Dev nD) : S2x8x128.Idx → EReal := fun i =>
  ∑ s ∈ Finset.range 20, addC m c (20 * (i 0).val + s)
    (ix3 (0 : Fin 1) (⟨(i 1).val, (i 1).isLt⟩ : Fin 8) (⟨(i 2).val, (i 2).isLt⟩ : Fin 128))

/-- The loss array the region leaves: entry `(c', r, l)` is the sum of core `c'`'s twenty addends at `(0, r, l)`. -/
def arrL (c : Dev nD) : S2x8x128.Idx → EReal := fun i =>
  ∑ s ∈ Finset.range 20, addL m c (20 * (i 0).val + s)
    (ix3 (0 : Fin 1) (⟨(i 1).val, (i 1).isLt⟩ : Fin 8) (⟨(i 2).val, (i 2).isLt⟩ : Fin 128))

/-- What a run's last point writes back is its row of the population array. -/
theorem flushedC_eq (c : Dev nD) (t : Fin cfg0.N) (hf : (cfg0.win 2).flush t = true) :
    (dats (F := Ideal) m 0 c).flushed 2 t = ((cfg0.win 2).blk t).view.read (Elt Ideal) (arrC m c) := by
  have h19 : t.val % 20 = 19 := (flush0_2 t).mp hf
  obtain ⟨e0, e1, e2⟩ := idxC t
  show (cfg0.win 2).cut (grid0.coords t) ((dats (F := Ideal) m 0 c).after 2 t) = _
  rw [after0_2]
  funext j
  have hj0 : (j 0).val < 1 := (j 0).isLt
  have hj1 : (j 1).val < 8 := (j 1).isLt
  have hj2 : (j 2).val < 128 := (j 2).isLt
  show blkC m c t.val t.isLt ((cfg0.win 2).xinj (grid0.coords t) j) = arrC m c (((cfg0.win 2).blk t).view.emb j)
  refine (blkC_last m c t.val t.isLt h19 ((cfg0.win 2).xinj (grid0.coords t) j)).trans ?_
  refine sum_congr_idx (addC m c) _ _ _ _ ?_ ?_
  · show t.val / 20 = win0_2.index t (0 : Fin 3) * 1 + 1 * (j 0).val
    omega
  · funext a
    apply Fin.ext
    match a with
    | ⟨0, _⟩ => show (j 0).val = 0; omega
    | ⟨1, _⟩ => show (j 1).val = win0_2.index t (1 : Fin 3) * 8 + 1 * (j 1).val; omega
    | ⟨2, _⟩ => show (j 2).val = win0_2.index t (2 : Fin 3) * 128 + 1 * (j 2).val; omega

/-- Entry `(c', r, l)` of the population array lies in the block of core `c'`'s last point. -/
theorem memC (c' : Fin 2) (r : Fin 8) (l : Fin 128) (t : Fin cfg0.N) (ht : t.val = 20 * c'.val + 19) :
    (ix3 c' r l : S2x8x128.Idx) ∈ ((cfg0.win 2).blk t).view.set := by
  obtain ⟨e0, e1, e2⟩ := idxC t
  have hc := c'.isLt
  have hr := r.isLt
  have hl := l.isLt
  show (ix3 c' r l : S2x8x128.Idx) ∈ ((View.whole main_v2_0).slice (win0_2.rect t)).set
  rw [View.set_slice_whole, Rect.mem_set_unit]
  intro a
  match a with
  | ⟨0, _⟩ => show win0_2.index t (0 : Fin 3) * 1 ≤ c'.val ∧ c'.val < win0_2.index t (0 : Fin 3) * 1 + 1; omega
  | ⟨1, _⟩ => show win0_2.index t (1 : Fin 3) * 8 ≤ r.val ∧ r.val < win0_2.index t (1 : Fin 3) * 8 + 8; omega
  | ⟨2, _⟩ => show win0_2.index t (2 : Fin 3) * 128 ≤ l.val ∧ l.val < win0_2.index t (2 : Fin 3) * 128 + 128; omega

/-- What a run's last point writes back is its row of the loss array. -/
theorem flushedL_eq (c : Dev nD) (t : Fin cfg0.N) (hf : (cfg0.win 3).flush t = true) :
    (dats (F := Ideal) m 0 c).flushed 3 t = ((cfg0.win 3).blk t).view.read (Elt Ideal) (arrL m c) := by
  have h19 : t.val % 20 = 19 := (flush0_3 t).mp hf
  obtain ⟨e0, e1, e2⟩ := idxL t
  show (cfg0.win 3).cut (grid0.coords t) ((dats (F := Ideal) m 0 c).after 3 t) = _
  rw [after0_3]
  funext j
  have hj0 : (j 0).val < 1 := (j 0).isLt
  have hj1 : (j 1).val < 8 := (j 1).isLt
  have hj2 : (j 2).val < 128 := (j 2).isLt
  show blkL m c t.val t.isLt ((cfg0.win 3).xinj (grid0.coords t) j) = arrL m c (((cfg0.win 3).blk t).view.emb j)
  refine (blkL_last m c t.val t.isLt h19 ((cfg0.win 3).xinj (grid0.coords t) j)).trans ?_
  refine sum_congr_idx (addL m c) _ _ _ _ ?_ ?_
  · show t.val / 20 = win0_3.index t (0 : Fin 3) * 1 + 1 * (j 0).val
    omega
  · funext a
    apply Fin.ext
    match a with
    | ⟨0, _⟩ => show (j 0).val = 0; omega
    | ⟨1, _⟩ => show (j 1).val = win0_3.index t (1 : Fin 3) * 8 + 1 * (j 1).val; omega
    | ⟨2, _⟩ => show (j 2).val = win0_3.index t (2 : Fin 3) * 128 + 1 * (j 2).val; omega

/-- Entry `(c', r, l)` of the loss array lies in the block of core `c'`'s last point. -/
theorem memL (c' : Fin 2) (r : Fin 8) (l : Fin 128) (t : Fin cfg0.N) (ht : t.val = 20 * c'.val + 19) :
    (ix3 c' r l : S2x8x128.Idx) ∈ ((cfg0.win 3).blk t).view.set := by
  obtain ⟨e0, e1, e2⟩ := idxL t
  have hc := c'.isLt
  have hr := r.isLt
  have hl := l.isLt
  show (ix3 c' r l : S2x8x128.Idx) ∈ ((View.whole main_v2_1).slice (win0_3.rect t)).set
  rw [View.set_slice_whole, Rect.mem_set_unit]
  intro a
  match a with
  | ⟨0, _⟩ => show win0_3.index t (0 : Fin 3) * 1 ≤ c'.val ∧ c'.val < win0_3.index t (0 : Fin 3) * 1 + 1; omega
  | ⟨1, _⟩ => show win0_3.index t (1 : Fin 3) * 8 ≤ r.val ∧ r.val < win0_3.index t (1 : Fin 3) * 8 + 8; omega
  | ⟨2, _⟩ => show win0_3.index t (2 : Fin 3) * 128 ≤ l.val ∧ l.val < win0_3.index t (2 : Fin 3) * 128 + 128; omega

/-- The population array after the region: row `c'` is the sum of core `c'`'s twenty addends. -/
theorem final2 (c : Dev nD) (c' : Fin 2) (r : Fin 8) (l : Fin 128) :
    ((dats (F := Ideal) m 0 c).arrAt 2 cfg0.N : S2x8x128.Idx → EReal) (ix3 c' r l)
      = ∑ s ∈ Finset.range 20, addC m c (20 * c'.val + s) (ix3 (0 : Fin 1) r l) := by
  have hc := c'.isLt
  have hlt : 20 * c'.val + 19 < cfg0.N := lt_of_lt_of_eq (by omega : 20 * c'.val + 19 < 40) (show cfg0.N = 40 from N_0).symm
  have hf : (cfg0.win 2).flush ⟨20 * c'.val + 19, hlt⟩ = true :=
    (flush0_2 ⟨20 * c'.val + 19, hlt⟩).mpr (by show (20 * c'.val + 19) % 20 = 19; omega)
  exact ((dats (F := Ideal) m 0 c).arrAt_apply_of_mem 2 (arrC m c) (flushedC_eq m c) cfg0.N ⟨20 * c'.val + 19, hlt⟩
    (ix3 c' r l) hlt hf (memC c' r l ⟨20 * c'.val + 19, hlt⟩ rfl)).trans rfl

/-- The loss array after the region: row `c'` is the sum of core `c'`'s twenty addends. -/
theorem final3 (c : Dev nD) (c' : Fin 2) (r : Fin 8) (l : Fin 128) :
    ((dats (F := Ideal) m 0 c).arrAt 3 cfg0.N : S2x8x128.Idx → EReal) (ix3 c' r l)
      = ∑ s ∈ Finset.range 20, addL m c (20 * c'.val + s) (ix3 (0 : Fin 1) r l) := by
  have hc := c'.isLt
  have hlt : 20 * c'.val + 19 < cfg0.N := lt_of_lt_of_eq (by omega : 20 * c'.val + 19 < 40) (show cfg0.N = 40 from N_0).symm
  have hf : (cfg0.win 3).flush ⟨20 * c'.val + 19, hlt⟩ = true :=
    (flush0_3 ⟨20 * c'.val + 19, hlt⟩).mpr (by show (20 * c'.val + 19) % 20 = 19; omega)
  exact ((dats (F := Ideal) m 0 c).arrAt_apply_of_mem 3 (arrL m c) (flushedL_eq m c) cfg0.N ⟨20 * c'.val + 19, hlt⟩
    (ix3 c' r l) hlt hf (memL c' r l ⟨20 * c'.val + 19, hlt⟩ rfl)).trans rfl

end Cert.KernelIdeal.Fold

end
-- ==== Proof.KEvalCount.lean ====
/-
  The population addend of one grid point, read at row 0, lane `b`: the number of the block's elements in bin `b`.

  The matrix product of eight rows of ones with the 0/1 indicator of a bin has, in each of its eight rows, the lane-wise
  populations; adding the eight rows and taking an eighth gives them back, and adding the lanes gives the population of the
  bin. The ten bins partition the `4096 · 128 = 524288` elements, so the last population is what the nine leave.
-/
import proofs.«413144_j52561809768998_3_alg».proof.Proof.KAcc
import proofs.«413144_j52561809768998_3_alg».proof.Proof.GhmSpec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Eval

open Idealize.ShloMosaic Idealize.ShloMosaic.ValueIdx Cert.KernelIdeal Cert.KernelIdeal.Acc

/-! ## The bin of an element -/

/-- The bins of a block, element by element, are the specification's bin of the element's prediction and target. -/
private theorem bins_apply [Facts] (x0 x1 : S4096x128.Idx → EReal) (j : S4096x128.Idx) :
    Acc.bins (F := Ideal) x0 x1 j = Cert.Ghm.binOf (x0 j) (x1 j) := by
  unfold Acc.bins Acc.pblk
  rw [shapeCast_self, shapeCast_self]
  rfl

/-- A signed word clamped to `[0, 9]` is one of the ten words `0 … 9`. -/
private theorem clamp_cases (w : BitVec 32) :
    ∃ k : Fin 10, IntOp.minsi 9#32 (IntOp.maxsi 0#32 w) = BitVec.ofNat 32 k.val := by
  unfold IntOp.minsi IntOp.maxsi
  by_cases h0 : w.slt 0#32 = true
  · refine ⟨0, ?_⟩
    rw [if_pos h0]
    decide
  · rw [if_neg h0]
    by_cases h9 : (9#32 : BitVec 32).slt w = true
    · exact ⟨9, by rw [if_pos h9]; rfl⟩
    · rw [if_neg h9]
      simp only [BitVec.slt, decide_eq_true_eq, not_lt] at h0 h9
      have e0 : (0#32 : BitVec 32).toInt = 0 := by decide
      have e9 : (9#32 : BitVec 32).toInt = 9 := by decide
      rw [e0] at h0; rw [e9] at h9
      have hlt : w.toNat < 2 ^ 32 := w.isLt
      have hi : w.toInt = (w.toNat : Int) := by
        rw [BitVec.toInt_eq_toNat_cond] at h0 h9 ⊢
        split at h0 <;> split <;> omega
      refine ⟨⟨w.toNat, by omega⟩, ?_⟩
      exact BitVec.eq_of_toNat_eq (by rw [BitVec.toNat_ofNat, Nat.mod_eq_of_lt hlt])

/-- Every element's bin is one of the ten words `0 … 9`. -/
private theorem binOf_cases (p g : EReal) : ∃ k : Fin 10, Cert.Ghm.binOf p g = BitVec.ofNat 32 k.val :=
  clamp_cases _

/-! ## A quantity laid at row 0, lane `k` -/

/-- The layer mask of the word `b` at row 0, lane `l`: one where the lane's number is `b`, zero on the others. -/
private theorem pos_apply [Facts] (b : BitVec 32) (l : Fin 128) :
    Acc.pos (F := Ideal) b (ix3 (0 : Fin 1) (0 : Fin 8) l) = if BitVec.ofNat 32 l.val = b then (1 : EReal) else 0 := by
  unfold Acc.pos
  rw [sitofp_apply, extui_apply]
  show FloatOps.sitofp (F := Ideal) .f32 ((IntOp.andi
      (IntOp.cmpi .eq (iota .tc S1x8x128 32 [1] Facts₀.iota_S1x8x128_d1_w32 (ix3 (0 : Fin 1) (0 : Fin 8) l)) 0#32)
      (IntOp.cmpi .eq (iota .tc S1x8x128 32 [2] Facts₀.iota_S1x8x128_d2_w32 (ix3 (0 : Fin 1) (0 : Fin 8) l))
        b)).setWidth 32) = _
  rw [iota_single_apply, iota_single_apply]
  show ((((IntOp.andi (IntOp.cmpi .eq (BitVec.ofNat 32 0) 0#32)
      (IntOp.cmpi .eq (BitVec.ofNat 32 l.val) b)).setWidth 32).toInt : ℝ) : EReal) = _
  simp only [IntOp.andi, IntOp.cmpi]
  by_cases h : BitVec.ofNat 32 l.val = b
  · rw [if_pos h, h]
    simp only [beq_self_eq_true]
    have e : ((BitVec.ofBool true &&& BitVec.ofBool true).setWidth 32).toInt = 1 := by decide
    rw [e]; norm_num
  · rw [if_neg h]
    have hne : (BitVec.ofNat 32 l.val == b) = false := beq_eq_false_iff_ne.mpr h
    rw [hne]
    simp only [beq_self_eq_true]
    have e : ((BitVec.ofBool true &&& BitVec.ofBool false).setWidth 32).toInt = 0 := by decide
    rw [e]; norm_num

/-- A scalar laid by a layer mask, read at row 0, lane `l`: the mask there times the scalar. -/
private theorem spread_apply [Facts] (b : BitVec 32) (s : FVec Ideal S1x1 .f32) (l : Fin 128) :
    Acc.spread b s (ix3 (0 : Fin 1) (0 : Fin 8) l)
      = Acc.pos (F := Ideal) b (ix3 (0 : Fin 1) (0 : Fin 8) l) * s (ix2 (0 : Fin 1) (0 : Fin 1)) := by
  unfold Acc.spread
  rw [mulf_apply]
  congr 1
  rw [broadcastTo_apply _ _ _ (ix3 (0 : Fin 1) (0 : Fin 1) (0 : Fin 1)) (fun a => by
    match a with
    | ⟨0, _⟩ => rfl
    | ⟨1, _⟩ => rfl
    | ⟨2, _⟩ => rfl)]
  exact shapeCast_ab_1ab_apply s _ 0 0 0

/-! ## The population of a bin in the block -/

/-- The coercion of a finite sum of reals is the sum of the coercions. -/
private theorem coe_sum {ι : Type} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The sum over the lanes of one row, read at its one index. -/
private theorem laneSum_apply [Facts] (v : FVec Ideal S1x128 .f32) :
    Acc.laneSum v (ix2 (0 : Fin 1) (0 : Fin 1)) = ∑ l : Fin 128, v (ix2 (0 : Fin 1) l) := by
  unfold Acc.laneSum
  rw [shapeCast_a_1a_apply]
  refine (Ideal.multiReduction_add_single v _ Facts₀.reduces_S1x128_S1 _ _ _).trans ?_
  refine Finset.sum_congr rfl fun l _ => congrArg v ?_
  funext c; apply Fin.ext
  match c with
  | ⟨0, _⟩ => rfl
  | ⟨1, _⟩ => rfl

/-- The sum over the eight rows, laid as one row, read at lane `l`. -/
private theorem rowSum_apply [Facts] (M : FVec Ideal S8x128 .f32) (l : Fin 128) :
    shapeCast S1x128 (multiReduction .add [0] S128 M 0x00000000#32 Facts₀.reduces_S8x128_S128 (.inl rfl) rfl)
        Facts₀.shapeCasts_S128_S1x128 (ix2 (0 : Fin 1) l)
      = ∑ r : Fin 8, M (ix2 r l) := by
  rw [shapeCast_a_1a_apply]
  refine (Ideal.multiReduction_add_single M _ Facts₀.reduces_S8x128_S128 _ _ _).trans ?_
  refine Finset.sum_congr rfl fun r _ => congrArg M ?_
  funext c; apply Fin.ext
  match c with
  | ⟨0, _⟩ => rfl
  | ⟨1, _⟩ => rfl

/-- The 0/1 indicator of a bin, as the matrix unit reads it, is the coercion of the real indicator. -/
private theorem ind_apply [Facts] (x0 x1 : S4096x128.Idx → EReal) (b : BitVec 32) (j : S4096x128.Idx) :
    (truncf .bf16 (sitofp (F := Ideal) .f32 (extui 32 (Acc.mask (F := Ideal) x0 x1 b) Facts₀.natLt_1_32))
        Facts₀.bitsLt_bf16_f32) j
      = (((if Cert.Ghm.binOf (x0 j) (x1 j) = b then 1 else 0 : ℝ)) : EReal) := by
  rw [truncf_apply, sitofp_apply, extui_apply]
  unfold Acc.mask
  show ((((IntOp.cmpi .eq (Acc.bins (F := Ideal) x0 x1 j) b).setWidth 32).toInt : ℝ) : EReal) = _
  rw [bins_apply]
  by_cases h : Cert.Ghm.binOf (x0 j) (x1 j) = b
  · rw [if_pos h, h]
    simp only [IntOp.cmpi, beq_self_eq_true]
    have e : ((BitVec.ofBool true).setWidth 32).toInt = 1 := by decide
    rw [e]; norm_num
  · rw [if_neg h]
    have hne : (Cert.Ghm.binOf (x0 j) (x1 j) == b) = false := beq_eq_false_iff_ne.mpr h
    simp only [IntOp.cmpi, hne]
    have e : ((BitVec.ofBool false).setWidth 32).toInt = 0 := by decide
    rw [e]; norm_num

/-- The product of the eight rows of ones with a 4096 × 128 matrix, into the zero splat, read at row `r`, lane `l`: the
    sum of the matrix's column `l`. -/
private theorem mm_apply [Facts] (R : FVec Ideal S4096x128 .bf16) (r : Fin 8) (l : Fin 128) :
    matmul dot_S8x4096_S4096x128_S8x128_1_0_0_1_n_n none (Acc.ones (F := Ideal)) R
        (constant S8x128 .f32 0x00000000#32) (ix2 r l)
      = ∑ k : Fin 4096, R (ix2 k l) := by
  show FloatOps.matmul dot_S8x4096_S4096x128_S8x128_1_0_0_1_n_n none (Acc.ones (F := Ideal)) R
    (constant S8x128 .f32 0x00000000#32) (ix2 r l) = _
  rw [Ideal.matmul_constant_zero_apply,
    ← Equiv.sum_comp (contrEquiv1 dot_S8x4096_S4096x128_S8x128_1_0_0_1_n_n 4096 rfl rfl).symm]
  refine Finset.sum_congr rfl fun k _ => ?_
  have ck := contrEquiv1_symm_val dot_S8x4096_S4096x128_S8x128_1_0_0_1_n_n 4096 rfl rfl k
  have hr : dot_S8x4096_S4096x128_S8x128_1_0_0_1_n_n.rhsIdx (ix2 r l)
      ((contrEquiv1 dot_S8x4096_S4096x128_S8x128_1_0_0_1_n_n 4096 rfl rfl).symm k) = ix2 k l := by
    funext ax; apply Fin.ext
    match ax with
    | ⟨0, _⟩ => simp [DotDims.rhsIdx, dot_S8x4096_S4096x128_S8x128_1_0_0_1_n_n]; exact ck
    | ⟨1, _⟩ => simp [DotDims.rhsIdx, dot_S8x4096_S4096x128_S8x128_1_0_0_1_n_n]; rfl
  rw [hr]
  show Ideal.ofBits .bf16 0x3F80#16 * _ = _
  rw [Ideal.ofBits_one_bf16, one_mul]

/-- The binary32 word `0x3E000000` is one eighth. -/
private theorem eighth_eq : Ideal.ofBits .f32 0x3E000000#32 = (((1 : ℝ) / 8 : ℝ) : EReal) := by
  simp [Ideal.ofBits, Ideal.ieee, -EReal.coe_mul]; norm_num

/-- A 0/1 indicator in the extended reals is the coercion of the real one. -/
private theorem ite_coe (p : Prop) [Decidable p] :
    (if p then (1 : EReal) else 0) = (((if p then 1 else 0 : ℝ)) : EReal) := by
  split <;> simp

/-- The population of bin `b` in the block, as the matrix unit and the two reductions compute it: the number of the
    block's elements whose bin is `b`. -/
private theorem cntB_apply [Facts] (x0 x1 : S4096x128.Idx → EReal) (b : BitVec 32) :
    Acc.cntB (F := Ideal) x0 x1 b (ix2 (0 : Fin 1) (0 : Fin 1))
      = ∑ j : S4096x128.Idx, if Cert.Ghm.binOf (x0 j) (x1 j) = b then (1 : EReal) else 0 := by
  unfold Acc.cntB
  rw [laneSum_apply, sum_idx2, Finset.sum_comm]
  refine Finset.sum_congr rfl fun l _ => ?_
  rw [mulf_apply, rowSum_apply]
  simp only [mm_apply, ind_apply, ite_coe, ← coe_sum]
  show _ * Ideal.ofBits .f32 0x3E000000#32 = _
  rw [eighth_eq, ← EReal.coe_mul]
  congr 1
  rw [Finset.sum_const, Finset.card_univ, Fintype.card_fin]
  simp only [nsmul_eq_mul]
  push_cast
  ring

/-! ## The ten populations partition the block -/

/-- The number of the block's elements in bin `k`, as a real. -/
private def cR (x0 x1 : S4096x128.Idx → EReal) (k : Nat) : ℝ :=
  ∑ j : S4096x128.Idx, if Cert.Ghm.binOf (x0 j) (x1 j) = BitVec.ofNat 32 k then 1 else 0

/-- The population the body computes for bin `k` is that number. -/
private theorem cntB_eq [Facts] (x0 x1 : S4096x128.Idx → EReal) (k : Nat) :
    Acc.cntB (F := Ideal) x0 x1 (BitVec.ofNat 32 k) (ix2 (0 : Fin 1) (0 : Fin 1)) = ((cR x0 x1 k : ℝ) : EReal) := by
  rw [cntB_apply]
  unfold cR
  simp only [ite_coe, ← coe_sum]

/-- So is the specification's. -/
private theorem cntV_eq (x0 x1 : S4096x128.Idx → EReal) (b : Fin 10) :
    Cert.Ghm.cntV x0 x1 b = ((cR x0 x1 b.val : ℝ) : EReal) := by
  unfold Cert.Ghm.cntV cR
  simp only [ite_coe, ← coe_sum]

/-- Each element is in exactly one of the ten bins, so the ten populations add up to the `4096 · 128` elements. -/
private theorem cR_total (x0 x1 : S4096x128.Idx → EReal) :
    ∑ k ∈ Finset.range 10, cR x0 x1 k = 524288 := by
  unfold cR
  rw [Finset.sum_comm]
  have h1 : ∀ j : S4096x128.Idx,
      (∑ k ∈ Finset.range 10, if Cert.Ghm.binOf (x0 j) (x1 j) = BitVec.ofNat 32 k then (1 : ℝ) else 0) = 1 := by
    intro j
    obtain ⟨k0, hk0⟩ := binOf_cases (x0 j) (x1 j)
    have hk0lt := k0.isLt
    rw [Finset.sum_eq_single k0.val]
    · rw [if_pos hk0]
    · intro k hk hne
      rw [Finset.mem_range] at hk
      rw [if_neg]
      rw [hk0]
      intro e
      have := congrArg BitVec.toNat e
      simp only [BitVec.toNat_ofNat] at this
      omega
    · intro hn
      exact absurd (Finset.mem_range.mpr hk0lt) hn
  rw [Finset.sum_congr rfl fun j _ => h1 j, sum_idx2]
  simp only [Finset.sum_const, Finset.card_univ, Fintype.card_fin, nsmul_eq_mul]
  norm_num

/-! ## The addend at row 0, lane `b` -/

/-- The binary32 word `0x49000000` is `524288`. -/
private theorem tot_eq : Ideal.ofBits .f32 0x49000000#32 = ((524288 : ℝ) : EReal) := by
  simp [Ideal.ofBits, Ideal.ieee, -EReal.coe_mul]; norm_num

/-- The zero blocks the layers are added up from. -/
private theorem z3_apply [Facts] (i : S1x8x128.Idx) : Acc.z3 (F := Ideal) i = 0 := Ideal.ofBits_zero_f32
private theorem z1_apply [Facts] (i : S1x1.Idx) : Acc.z1 (F := Ideal) i = 0 := Ideal.ofBits_zero_f32

/-- Nine layers added up from zero, and a tenth holding what the nine leave of `T`, read at row 0, lane `l`. -/
private theorem layers_apply [Facts] (c : BitVec 32 → FVec Ideal S1x1 .f32) (T : FVec Ideal S1x1 .f32) (l : Fin 128) :
    addf (Acc.firstNine.foldl (fun acc b => addf acc (Acc.spread b (c b))) Acc.z3)
        (Acc.spread 9#32 (subf T (Acc.firstNine.foldl (fun acc b => addf acc (c b)) Acc.z1)))
        (ix3 (0 : Fin 1) (0 : Fin 8) l)
      = (((((((((0 + (if BitVec.ofNat 32 l.val = 0#32 then 1 else 0) * c 0#32 (ix2 (0 : Fin 1) (0 : Fin 1)))
        + (if BitVec.ofNat 32 l.val = 1#32 then 1 else 0) * c 1#32 (ix2 (0 : Fin 1) (0 : Fin 1)))
        + (if BitVec.ofNat 32 l.val = 2#32 then 1 else 0) * c 2#32 (ix2 (0 : Fin 1) (0 : Fin 1)))
        + (if BitVec.ofNat 32 l.val = 3#32 then 1 else 0) * c 3#32 (ix2 (0 : Fin 1) (0 : Fin 1)))
        + (if BitVec.ofNat 32 l.val = 4#32 then 1 else 0) * c 4#32 (ix2 (0 : Fin 1) (0 : Fin 1)))
        + (if BitVec.ofNat 32 l.val = 5#32 then 1 else 0) * c 5#32 (ix2 (0 : Fin 1) (0 : Fin 1)))
        + (if BitVec.ofNat 32 l.val = 6#32 then 1 else 0) * c 6#32 (ix2 (0 : Fin 1) (0 : Fin 1)))
        + (if BitVec.ofNat 32 l.val = 7#32 then 1 else 0) * c 7#32 (ix2 (0 : Fin 1) (0 : Fin 1)))
        + (if BitVec.ofNat 32 l.val = 8#32 then 1 else 0) * c 8#32 (ix2 (0 : Fin 1) (0 : Fin 1)))
        + (if BitVec.ofNat 32 l.val = 9#32 then 1 else 0) *
          (T (ix2 (0 : Fin 1) (0 : Fin 1)) -
            (((((((((0 + c 0#32 (ix2 (0 : Fin 1) (0 : Fin 1)))
            + c 1#32 (ix2 (0 : Fin 1) (0 : Fin 1))) + c 2#32 (ix2 (0 : Fin 1) (0 : Fin 1)))
            + c 3#32 (ix2 (0 : Fin 1) (0 : Fin 1))) + c 4#32 (ix2 (0 : Fin 1) (0 : Fin 1)))
            + c 5#32 (ix2 (0 : Fin 1) (0 : Fin 1))) + c 6#32 (ix2 (0 : Fin 1) (0 : Fin 1)))
            + c 7#32 (ix2 (0 : Fin 1) (0 : Fin 1))) + c 8#32 (ix2 (0 : Fin 1) (0 : Fin 1)))) := by
  unfold Acc.firstNine
  simp only [List.foldl, addf_apply, subf_apply, spread_apply, pos_apply, z3_apply, z1_apply]

/-- Row 0, lane `b` of the population addend is the population of bin `b` in the block. -/
theorem accC_apply [Facts] (x0 x1 : S4096x128.Idx → EReal) (b : Fin 10) :
    accC (F := Ideal) x0 x1 (ix3 (0 : Fin 1) (0 : Fin 8) (⟨b.val, by omega⟩ : Fin 128)) = Cert.Ghm.cntV x0 x1 b := by
  have hT : Scalar.ofBits (F := Ideal) .f32 0x49000000#32 = ((524288 : ℝ) : EReal) := tot_eq
  have htot := cR_total x0 x1
  simp only [Finset.sum_range_succ, Finset.sum_range_zero, zero_add] at htot
  rw [cntV_eq]
  refine (layers_apply (Acc.cntB (F := Ideal) x0 x1) (broadcast S1x1 (Scalar.ofBits .f32 0x49000000#32)) _).trans ?_
  rw [cntB_eq x0 x1 0, cntB_eq x0 x1 1, cntB_eq x0 x1 2, cntB_eq x0 x1 3, cntB_eq x0 x1 4, cntB_eq x0 x1 5,
    cntB_eq x0 x1 6, cntB_eq x0 x1 7, cntB_eq x0 x1 8, broadcast_apply, hT]
  -- below nine only the bin's own layer survives; the last layer holds what the nine leave of the 524288 elements
  fin_cases b <;> simp
  norm_cast
  linarith

end Cert.KernelIdeal.Eval

end
-- ==== Proof.KEvalLoss.lean ====
/-
  The loss addend of one grid point, read at row 0, lane `b`: the sum of the loss terms of the block's elements in bin `b`.

  For the bins 0 … 8 the selected loss terms are added over rows and then over lanes. The last bin is the block's whole loss
  less the nine: the bins partition the elements, and on predictions strictly between zero and one every loss term is a
  real number, so the subtraction is the real one.
-/
import proofs.«413144_j52561809768998_3_alg».proof.Proof.KAcc
import proofs.«413144_j52561809768998_3_alg».proof.Proof.GhmSpec
import Idealize.ShloMosaic.Lib.ValueIdx
import Idealize.ShloMosaic.Lib.Pipeline.Value
import Idealize.ShloMosaic.PureOps.Ideal.Laws

noncomputable section

namespace Cert.KernelIdeal.Eval

open Idealize.ShloMosaic Idealize.ShloMosaic.ValueIdx Cert.KernelIdeal Cert.KernelIdeal.Acc

/-- A block as the body reads it is the block. -/
private theorem pblk_eq [Facts] (x : S4096x128.Idx → EReal) : pblk (F := Ideal) x = x := shapeCast_self _ _

/-- The bin word of the block's element `j`. -/
private theorem bins_apply [Facts] (x0 x1 : S4096x128.Idx → EReal) (j : S4096x128.Idx) :
    bins (F := Ideal) x0 x1 j = Cert.Ghm.binOf (x0 j) (x1 j) := by
  unfold bins; rw [pblk_eq, pblk_eq]; rfl

/-- The loss term of the block's element `j`. -/
private theorem base_apply [Facts] (x0 x1 : S4096x128.Idx → EReal) (j : S4096x128.Idx) :
    base (F := Ideal) x0 x1 j = Cert.Ghm.ell (x0 j) (x1 j) := by
  unfold base; rw [pblk_eq, pblk_eq]; rfl

/-- The indicator of bin `k` at element `j`: the comparison of the element's bin word with `k`. -/
private theorem mask_apply [Facts] (x0 x1 : S4096x128.Idx → EReal) (k : BitVec 32) (j : S4096x128.Idx) :
    mask (F := Ideal) x0 x1 k j = IntOp.cmpi .eq (Cert.Ghm.binOf (x0 j) (x1 j)) k := by
  unfold mask; rw [← bins_apply]; rfl

/-- Adding over the rows and then over the lanes adds over all the elements. -/
private theorem redAll_apply [Facts] (v : S4096x128.Idx → EReal) :
    redAll (F := Ideal) v (ix2 (0 : Fin 1) (0 : Fin 1)) = ∑ j : S4096x128.Idx, v j := by
  unfold redAll laneSum
  rw [shapeCast_apply (s := S1) (t := S1x1) _ _ (ix2 (0 : Fin 1) (0 : Fin 1)) (ix1 (0 : Fin 1)) rfl]
  refine (Ideal.multiReduction_add_single _ _ _ _ _ _).trans ?_
  rw [sum_idx2, Finset.sum_comm]
  refine Finset.sum_congr rfl fun l _ => ?_
  rw [shapeCast_apply (s := S128) (t := S1x128) _ _ _ (ix1 l)
    (by rw [Shape.rowMajor_val_one, Shape.rowMajor_val_two]; show l.val = 0 * 128 + l.val; omega)]
  refine (Ideal.multiReduction_add_single _ _ _ _ _ _).trans ?_
  refine Finset.sum_congr rfl fun r _ => ?_
  congr 1
  funext a
  match a with
  | ⟨0, _⟩ => rfl
  | ⟨1, _⟩ => rfl

/-- A word clamped to `[0, 9]` as a signed integer is one of the ten words `0 … 9`. -/
private theorem clamp_cases (w : BitVec 32) :
    ∃ k : Fin 10, IntOp.minsi 9#32 (IntOp.maxsi 0#32 w) = BitVec.ofNat 32 k.val := by
  unfold IntOp.minsi IntOp.maxsi
  by_cases h1 : w.slt 0#32 = true
  · exact ⟨0, by rw [if_pos h1]; rfl⟩
  · rw [if_neg h1]
    by_cases h2 : (9#32).slt w = true
    · exact ⟨9, by rw [if_pos h2]; rfl⟩
    · rw [if_neg h2]
      have a1 : 0 ≤ w.toInt := by simpa [BitVec.slt] using h1
      have a2 : w.toInt ≤ 9 := by simpa [BitVec.slt] using h2
      have hw : w = BitVec.ofInt 32 w.toInt := (BitVec.ofInt_toInt).symm
      obtain ⟨n, hn⟩ : ∃ n : ℕ, w.toInt = n := ⟨w.toInt.toNat, by omega⟩
      have hn9 : n < 10 := by omega
      refine ⟨⟨n, hn9⟩, ?_⟩
      calc w = BitVec.ofInt 32 w.toInt := hw
        _ = BitVec.ofInt 32 (n : ℤ) := by rw [hn]
        _ = BitVec.ofNat 32 n := BitVec.ofInt_natCast 32 n

/-- An element's bin is one of the ten words `0 … 9`. -/
private theorem binOf_cases (p g : EReal) : ∃ k : Fin 10, Cert.Ghm.binOf p g = BitVec.ofNat 32 k.val :=
  clamp_cases _

/-- The word `0x3F800000` is the number one. -/
private theorem one_eq : Cert.Ghm.one = 1 := by
  simp [Cert.Ghm.one, Ideal.ofBits, Ideal.ieee, -EReal.coe_mul]; norm_num

/-- At a prediction strictly between zero and one the loss term is a real number: the logarithm of `p` or of `1 − p`, both positive. -/
private theorem ell_real (p g : EReal) (hp : ∃ r : ℝ, p = (r : EReal) ∧ 0 < r ∧ r < 1) :
    ∃ e : ℝ, Cert.Ghm.ell p g = (e : EReal) := by
  obtain ⟨r, rfl, h0, h1⟩ := hp
  unfold Cert.Ghm.ell
  rw [one_eq]
  split_ifs
  · exact ⟨Real.log r, by rw [Ideal.log_coe, if_neg (not_le.mpr h0)]⟩
  · refine ⟨Real.log (1 - r), ?_⟩
    rw [← EReal.coe_one, ← EReal.coe_sub, Ideal.log_coe, if_neg (not_le.mpr (by linarith))]

/-- The equality test of two words is the bit `1` exactly when they are equal. -/
private theorem cmpi_eq_one_iff (x y : BitVec 32) : IntOp.cmpi .eq x y = 1 ↔ x = y := by
  unfold IntOp.cmpi
  by_cases h : x = y
  · subst h; simp
  · have hb : (x == y) = false := beq_eq_false_iff_ne.mpr h
    simp [h, hb]

/-- The loss of bin `k` in the block is the sum of the loss terms of the elements whose bin is `k`. -/
private theorem lossB_apply [Facts] (x0 x1 : S4096x128.Idx → EReal) (k : BitVec 32) :
    lossB (F := Ideal) x0 x1 k (ix2 (0 : Fin 1) (0 : Fin 1))
      = ∑ j : S4096x128.Idx, if Cert.Ghm.binOf (x0 j) (x1 j) = k then Cert.Ghm.ell (x0 j) (x1 j) else 0 := by
  unfold lossB
  rw [redAll_apply]
  refine Finset.sum_congr rfl fun j _ => ?_
  rw [select_apply, mask_apply, base_apply]
  show (if IntOp.cmpi .eq _ k = 1 then _ else Ideal.ofBits .f32 0x00000000#32) = _
  rw [Ideal.ofBits_zero_f32]
  simp only [cmpi_eq_one_iff]

/-- At row 0, lane `l` the layer of bin `b` is one when `l` is `b` and zero otherwise. -/
private theorem pos_apply [Facts] (b : BitVec 32) (l : Fin 128) :
    pos (F := Ideal) b (ix3 (0 : Fin 1) (0 : Fin 8) l) = if BitVec.ofNat 32 l.val = b then 1 else 0 := by
  unfold pos
  rw [sitofp_apply, extui_apply]
  show ((((IntOp.andi (IntOp.cmpi .eq (iota .tc S1x8x128 32 [1] _ (ix3 (0 : Fin 1) (0 : Fin 8) l)) 0#32)
    (IntOp.cmpi .eq (iota .tc S1x8x128 32 [2] _ (ix3 (0 : Fin 1) (0 : Fin 8) l)) b)).setWidth 32).toInt : ℝ) : EReal) = _
  rw [iota_single_apply, iota_single_apply]
  show ((((IntOp.andi (IntOp.cmpi .eq (BitVec.ofNat 32 0) 0#32)
    (IntOp.cmpi .eq (BitVec.ofNat 32 l.val) b)).setWidth 32).toInt : ℝ) : EReal) = _
  by_cases h : BitVec.ofNat 32 l.val = b
  · rw [if_pos h, (cmpi_eq_one_iff _ _).mpr h, (cmpi_eq_one_iff _ _).mpr rfl,
      show ((IntOp.andi (1 : BitVec 1) 1).setWidth 32).toInt = 1 from by decide]
    simp
  · rw [if_neg h, eq_zero_of_ne_one (mt (cmpi_eq_one_iff _ _).mp h), (cmpi_eq_one_iff _ _).mpr rfl,
      show ((IntOp.andi (1 : BitVec 1) 0#1).setWidth 32).toInt = 0 from by decide]
    simp

/-- A scalar laid at row 0, lane `b`, read at row 0, lane `l`. -/
private theorem spread_apply [Facts] (b : BitVec 32) (s : S1x1.Idx → EReal) (l : Fin 128) :
    spread (F := Ideal) b s (ix3 (0 : Fin 1) (0 : Fin 8) l)
      = (if BitVec.ofNat 32 l.val = b then 1 else 0) * s (ix2 (0 : Fin 1) (0 : Fin 1)) := by
  unfold spread
  rw [mulf_apply, pos_apply,
    broadcastTo_apply (s := S1x1x1) (t := S1x8x128) _ _ _ (ix3 (0 : Fin 1) (0 : Fin 1) (0 : Fin 1))
      (fun a => match a with | ⟨0, _⟩ => rfl | ⟨1, _⟩ => rfl | ⟨2, _⟩ => rfl),
    shapeCast_apply (s := S1x1) (t := S1x1x1) _ _ _ (ix2 (0 : Fin 1) (0 : Fin 1)) rfl]

/-- The loss of the block's elements whose bin is the word `k`. -/
private def binLoss (x0 x1 : S4096x128.Idx → EReal) (k : BitVec 32) : EReal :=
  ∑ j : S4096x128.Idx, if Cert.Ghm.binOf (x0 j) (x1 j) = k then Cert.Ghm.ell (x0 j) (x1 j) else 0

/-- The word `0x00000000` is the number zero. -/
private theorem zero_word : Scalar.ofBits (F := Ideal) .f32 0x00000000#32 = 0 := Ideal.ofBits_zero_f32

/-- The addend at row 0, lane `l`, layer by layer. -/
private theorem accL_expand [Facts] (x0 x1 : S4096x128.Idx → EReal) (l : Fin 128) :
    accL (F := Ideal) x0 x1 (ix3 (0 : Fin 1) (0 : Fin 8) l) =
      (((((((((0 + (if BitVec.ofNat 32 l.val = 0#32 then 1 else 0) * binLoss x0 x1 0#32)
        + (if BitVec.ofNat 32 l.val = 1#32 then 1 else 0) * binLoss x0 x1 1#32)
        + (if BitVec.ofNat 32 l.val = 2#32 then 1 else 0) * binLoss x0 x1 2#32)
        + (if BitVec.ofNat 32 l.val = 3#32 then 1 else 0) * binLoss x0 x1 3#32)
        + (if BitVec.ofNat 32 l.val = 4#32 then 1 else 0) * binLoss x0 x1 4#32)
        + (if BitVec.ofNat 32 l.val = 5#32 then 1 else 0) * binLoss x0 x1 5#32)
        + (if BitVec.ofNat 32 l.val = 6#32 then 1 else 0) * binLoss x0 x1 6#32)
        + (if BitVec.ofNat 32 l.val = 7#32 then 1 else 0) * binLoss x0 x1 7#32)
        + (if BitVec.ofNat 32 l.val = 8#32 then 1 else 0) * binLoss x0 x1 8#32)
      + (if BitVec.ofNat 32 l.val = 9#32 then 1 else 0) *
        ((∑ j : S4096x128.Idx, Cert.Ghm.ell (x0 j) (x1 j)) -
          (((((((((0 + binLoss x0 x1 0#32) + binLoss x0 x1 1#32) + binLoss x0 x1 2#32) + binLoss x0 x1 3#32)
            + binLoss x0 x1 4#32) + binLoss x0 x1 5#32) + binLoss x0 x1 6#32) + binLoss x0 x1 7#32)
            + binLoss x0 x1 8#32)) := by
  unfold accL lossLayers lossSum firstNine binLoss
  simp only [List.foldl, addf_apply, subf_apply, spread_apply, z3, z1, broadcast_apply, lossB_apply, redAll_apply,
    base_apply, zero_word]

/-- The coercion of a finite sum of reals is the sum of the coercions. -/
private theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Distinct naturals below ten are distinct 32-bit words. -/
private theorem ofNat32_inj {a b : ℕ} (ha : a < 10) (hb : b < 10) (h : BitVec.ofNat 32 a = BitVec.ofNat 32 b) : a = b := by
  have := congrArg BitVec.toNat h
  simp only [BitVec.toNat_ofNat] at this
  omega

/-- On predictions inside `(0, 1)` the ten bin losses and the whole loss are real numbers, and the whole is the sum of the ten. -/
private theorem real_split (x0 x1 : S4096x128.Idx → EReal) (hP : Cert.Ghm.InDomain x0) :
    ∃ (R : BitVec 32 → ℝ) (T : ℝ), (∀ k, binLoss x0 x1 k = (R k : EReal))
      ∧ (∑ j : S4096x128.Idx, Cert.Ghm.ell (x0 j) (x1 j)) = (T : EReal)
      ∧ T = ∑ k ∈ Finset.range 10, R (BitVec.ofNat 32 k) := by
  choose e he using fun j => ell_real (x0 j) (x1 j) (hP j)
  refine ⟨fun k => ∑ j, if Cert.Ghm.binOf (x0 j) (x1 j) = k then e j else 0, ∑ j, e j, fun k => ?_, ?_, ?_⟩
  · unfold binLoss
    rw [coe_sum]
    refine Finset.sum_congr rfl fun j _ => ?_
    rw [he j]
    split_ifs <;> rfl
  · rw [coe_sum]
    exact Finset.sum_congr rfl fun j _ => he j
  · rw [Finset.sum_comm]
    refine Finset.sum_congr rfl fun j _ => ?_
    obtain ⟨k0, hk0⟩ := binOf_cases (x0 j) (x1 j)
    rw [hk0, Finset.sum_eq_single_of_mem k0.val (Finset.mem_range.mpr k0.isLt)
      (fun k hk hne => if_neg fun h => hne (ofNat32_inj (Finset.mem_range.mp hk) k0.isLt h.symm)), if_pos rfl]

/-- Row 0, lane `b` of the loss addend is the loss of bin `b` in the block, on predictions inside `(0, 1)`. -/
theorem accL_apply [Facts] (x0 x1 : S4096x128.Idx → EReal) (hP : Cert.Ghm.InDomain x0) (b : Fin 10) :
    accL (F := Ideal) x0 x1 (ix3 (0 : Fin 1) (0 : Fin 8) (⟨b.val, by omega⟩ : Fin 128)) = Cert.Ghm.losV x0 x1 b := by
  obtain ⟨R, T, hL, hT, hsplit⟩ := real_split x0 x1 hP
  rw [accL_expand, hT]
  show _ = binLoss x0 x1 (BitVec.ofNat 32 b.val)
  simp only [hL]
  -- for a bin below nine only its own layer survives; for the last bin the subtraction is the real one
  fin_cases b <;> simp
  norm_cast
  rw [hsplit]
  simp only [Finset.sum_range_succ, Finset.sum_range_zero]
  ring

end Cert.KernelIdeal.Eval

end
-- ==== Proof.KBlocks.lean ====
/-
  Where the elements of a grid point's input blocks sit in the argument arrays.

  The arguments [16, 80, 128, 128] are read as 163840 rows of 128 lanes (row-major), and grid point `t` of the 2 × 20 grid
  takes the rows `4096·t … 4096·t + 4095`. So the forty blocks tile the array: every element of the array is element `j` of
  exactly one block `t`, and a sum over the array is the sum over the points of the sums over their blocks.
-/
import proofs.«413144_j52561809768998_3_alg».proof.Proof.Gen.KernelIdeal.Frame
import Idealize.ShloMosaic.Lib.ValueIdx
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]

/-! ## Positions: the arithmetic of the two mixed-radix writings of a number below 16·80·128·128 = 40·4096·128 -/

/-- The row-major position in the array of element `(r, l)` of block `t`. -/
private def pos (t r l : Nat) : Nat := (4096 * t + r) * 128 + l

private theorem pos_lt {t r l : Nat} (ht : t < 40) (hr : r < 4096) (hl : l < 128) : pos t r l < 20971520 := by
  unfold pos; omega

/-- The four digits of a position recompose to it. -/
private theorem digits4 (p : Nat) :
    ((p / 1310720 * 80 + p / 16384 % 80) * 128 + p / 128 % 128) * 128 + p % 128 = p := by omega

/-- The three digits (point, row, lane) of a position recompose to it. -/
private theorem digits3 (q : Nat) : pos (q / 524288) (q / 128 % 4096) (q % 128) = q := by
  unfold pos; omega

/-- A grid point's number is below forty. -/
private theorem t_lt (t : Fin cfg0.N) : t.val < 40 := Nat.lt_of_lt_of_eq t.isLt N_0

/-- The array index at a row-major position. -/
private def ofPos (p : Nat) (hp : p < 20971520) : S16x80x128x128.Idx :=
  ix4 (⟨p / 1310720, by omega⟩ : Fin 16) (⟨p / 16384 % 80, by omega⟩ : Fin 80) (⟨p / 128 % 128, by omega⟩ : Fin 128)
    (⟨p % 128, by omega⟩ : Fin 128)

/-- The array index of element `j` of the block of grid point `t`. -/
def elt (t : Fin cfg0.N) (j : S4096x128.Idx) : S16x80x128x128.Idx :=
  ofPos (pos t.val (j 0).val (j 1).val) (pos_lt (t_lt t) (idx2_lt0 j) (idx2_lt1 j))

/-- The row-major position of `elt t j`. -/
private theorem rowMajor_elt (t : Fin cfg0.N) (j : S4096x128.Idx) :
    (S16x80x128x128.rowMajor (elt t j)).val = pos t.val (j 0).val (j 1).val := by
  rw [Shape.rowMajor_val_four]
  exact digits4 _

/-- The row-major position of `elt t j` in the array: row `4096·t + j₀`, lane `j₁`. -/
theorem rowMajor_elt_val (t : Fin cfg0.N) (j : S4096x128.Idx) :
    (S16x80x128x128.rowMajor (elt t j)).val = (4096 * t.val + (j 0).val) * 128 + (j 1).val := rowMajor_elt t j

/-- Window 0's and window 1's block index at point `t` is `(t, 0)`. -/
private theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
private theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-! ## The blocks tile the array -/

/-- The row-major position of an array index. -/
private def pos4 (i : S16x80x128x128.Idx) : Nat :=
  (((i 0).val * 80 + (i 1).val) * 128 + (i 2).val) * 128 + (i 3).val

private theorem pos4_lt (i : S16x80x128x128.Idx) : pos4 i < 20971520 := by
  have h0 : (i 0).val < 16 := (i 0).isLt
  have h1 : (i 1).val < 80 := (i 1).isLt
  have h2 : (i 2).val < 128 := (i 2).isLt
  have h3 : (i 3).val < 128 := (i 3).isLt
  unfold pos4; omega

/-- The index at a position depends on the position only. -/
private theorem ofPos_congr {p p' : Nat} (h : p = p') (hp : p < 20971520) (hp' : p' < 20971520) :
    ofPos p hp = ofPos p' hp' := by subst h; rfl

/-- The index at a position has that position … -/
private theorem pos4_ofPos (p : Nat) (hp : p < 20971520) : pos4 (ofPos p hp) = p := digits4 p

/-- … and an index is the index at its position. -/
private theorem ofPos_pos4 (i : S16x80x128x128.Idx) : ofPos (pos4 i) (pos4_lt i) = i := by
  have h0 : (i 0).val < 16 := (i 0).isLt
  have h1 : (i 1).val < 80 := (i 1).isLt
  have h2 : (i 2).val < 128 := (i 2).isLt
  have h3 : (i 3).val < 128 := (i 3).isLt
  funext a
  match a with
  | ⟨0, _⟩ => exact Fin.ext (by show pos4 i / 1310720 = (i 0).val; unfold pos4; omega)
  | ⟨1, _⟩ => exact Fin.ext (by show pos4 i / 16384 % 80 = (i 1).val; unfold pos4; omega)
  | ⟨2, _⟩ => exact Fin.ext (by show pos4 i / 128 % 128 = (i 2).val; unfold pos4; omega)
  | ⟨3, _⟩ => exact Fin.ext (by show pos4 i % 128 = (i 3).val; unfold pos4; omega)

private theorem pos4_elt (t : Fin cfg0.N) (j : S4096x128.Idx) : pos4 (elt t j) = pos t.val (j 0).val (j 1).val :=
  pos4_ofPos _ _

/-- Point and block element against array index: both write the numbers below 20971520 in mixed radix. -/
private def blockEquiv : Fin cfg0.N × S4096x128.Idx ≃ S16x80x128x128.Idx where
  toFun p := elt p.1 p.2
  invFun i :=
    (⟨pos4 i / 524288, Nat.lt_of_lt_of_eq (by have := pos4_lt i; omega) N_0.symm⟩,
      ix2 (⟨pos4 i / 128 % 4096, by omega⟩ : Fin 4096) (⟨pos4 i % 128, by omega⟩ : Fin 128))
  left_inv := fun ⟨t, j⟩ => by
    have ht := t_lt t
    have hr := idx2_lt0 j
    have hl := idx2_lt1 j
    refine Prod.ext (Fin.ext ?_) (funext fun a => ?_)
    · show pos4 (elt t j) / 524288 = t.val
      rw [pos4_elt]; unfold pos; omega
    · match a with
      | ⟨0, _⟩ => exact Fin.ext (by show pos4 (elt t j) / 128 % 4096 = (j 0).val; rw [pos4_elt]; unfold pos; omega)
      | ⟨1, _⟩ => exact Fin.ext (by show pos4 (elt t j) % 128 = (j 1).val; rw [pos4_elt]; unfold pos; omega)
  right_inv := fun i => (ofPos_congr (digits3 (pos4 i)) _ _).trans (ofPos_pos4 i)

/-! ## The blocks read off the arguments -/

variable (m : (ℓ : Loc nD τ sig) → Buf (Elt F) ℓ)

/-- A point's block of predictions holds the first argument's elements at `elt`. -/
theorem iblk0_eq (c : Dev nD) (t : Fin cfg0.N) (j : S4096x128.Idx) :
    (iblk m c 0 t : S4096x128.Idx → F .f32) j
      = (m ((c.tc : Thread nD τ).loc main_arg0) : S16x80x128x128.Idx → F .f32) (elt t j) := by
  have e : (V m c main_v0 : S163840x128.Idx → F .f32)
      = shapeCast S163840x128 (m ((c.tc : Thread nD τ).loc main_arg0)) shapeCasts_S16x80x128x128_S163840x128 := by
    dsimp only [Gen.V, Gen.V0]
    simp only [Gen.hostOps0, List.flatten_cons, List.flatten_nil, List.append_nil]
    after_results
    rfl
  show (V m c main_v0 : S163840x128.Idx → F .f32) (((cfg0.win 0).blk t).view.emb j) = _
  rw [e]
  refine shapeCast_apply _ _ _ _ ?_
  show (S16x80x128x128.rowMajor (elt t j)).val = (S163840x128.rowMajor ((win0_0.rect t).emb j)).val
  rw [rowMajor_elt, Shape.rowMajor_val_two, Pipeline.Window.rect_emb_val win0_0 t j (0 : Fin 2),
    Pipeline.Window.rect_emb_val win0_0 t j (1 : Fin 2), (idx0 t).1, (idx0 t).2]
  show pos t.val (j 0).val (j 1).val = (t.val * 4096 + (j 0).val) * 128 + (0 * 128 + (j 1).val)
  unfold pos; omega

/-- A point's block of targets holds the second argument's elements at `elt`. -/
theorem iblk1_eq (c : Dev nD) (t : Fin cfg0.N) (j : S4096x128.Idx) :
    (iblk m c 1 t : S4096x128.Idx → F .f32) j
      = (m ((c.tc : Thread nD τ).loc main_arg1) : S16x80x128x128.Idx → F .f32) (elt t j) := by
  have e : (V m c main_v1 : S163840x128.Idx → F .f32)
      = shapeCast S163840x128 (m ((c.tc : Thread nD τ).loc main_arg1)) shapeCasts_S16x80x128x128_S163840x128 := by
    dsimp only [Gen.V, Gen.V0]
    simp only [Gen.hostOps0, List.flatten_cons, List.flatten_nil, List.append_nil]
    after_results
    rfl
  show (V m c main_v1 : S163840x128.Idx → F .f32) (((cfg0.win 1).blk t).view.emb j) = _
  rw [e]
  refine shapeCast_apply _ _ _ _ ?_
  show (S16x80x128x128.rowMajor (elt t j)).val = (S163840x128.rowMajor ((win0_1.rect t).emb j)).val
  rw [rowMajor_elt, Shape.rowMajor_val_two, Pipeline.Window.rect_emb_val win0_1 t j (0 : Fin 2),
    Pipeline.Window.rect_emb_val win0_1 t j (1 : Fin 2), (idx1 t).1, (idx1 t).2]
  show pos t.val (j 0).val (j 1).val = (t.val * 4096 + (j 0).val) * 128 + (0 * 128 + (j 1).val)
  unfold pos; omega

/-- The forty blocks tile the array: a sum over the array is the sum over the points of the sums over their blocks. -/
theorem sum_elt {M : Type} [AddCommMonoid M] (f : S16x80x128x128.Idx → M) :
    ∑ t : Fin cfg0.N, ∑ j : S4096x128.Idx, f (elt t j) = ∑ i, f i :=
  (Fintype.sum_prod_type' fun (t : Fin cfg0.N) (j : S4096x128.Idx) => f (elt t j)).symm.trans
    (Equiv.sum_comp blockEquiv f)

end Cert.KernelIdeal.Blocks

end
-- ==== Proof.KValue.lean ====
/-
  The kernel program's result as the specification's function of its arguments.

  The host tail reads, for each bin, lane `b` of row 0 of the two output arrays, added over the two cores' rows. Row `c'` is the
  sum of core `c'`'s twenty addends; at row 0, lane `b` an addend is the population (resp. the loss) of bin `b` in the
  point's block; the forty blocks tile the argument arrays. So the ten numbers the tail reads are the populations and the
  per-bin losses of the whole arrays.
-/
import proofs.«413144_j52561809768998_3_alg».proof.Proof.KTailRun
import proofs.«413144_j52561809768998_3_alg».proof.Proof.KFold
import proofs.«413144_j52561809768998_3_alg».proof.Proof.KEvalCount
import proofs.«413144_j52561809768998_3_alg».proof.Proof.KEvalLoss
import proofs.«413144_j52561809768998_3_alg».proof.Proof.KBlocks

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

-- the addends stay folded here: nothing below looks inside them
attribute [local irreducible] Acc.accC Acc.accL

variable (m : (ℓ : Loc nD τ sig) → Buf (Elt Ideal) ℓ)

/-- The two argument arrays of a core, at their literal type. -/
def preArr (c : Dev nD) : S16x80x128x128.Idx → EReal := m ((c.tc : Thread nD τ).loc main_arg0)
def gtArr (c : Dev nD) : S16x80x128x128.Idx → EReal := m ((c.tc : Thread nD τ).loc main_arg1)

/-- The two input blocks of a point, at their literal type. -/
def blk0 (c : Dev nD) (t : Fin cfg0.N) : S4096x128.Idx → EReal := iblk m c 0 t
def blk1 (c : Dev nD) (t : Fin cfg0.N) : S4096x128.Idx → EReal := iblk m c 1 t

theorem blk0_apply (c : Dev nD) (t : Fin cfg0.N) (j : S4096x128.Idx) : blk0 m c t j = preArr m c (Blocks.elt t j) :=
  Blocks.iblk0_eq m c t j
theorem blk1_apply (c : Dev nD) (t : Fin cfg0.N) (j : S4096x128.Idx) : blk1 m c t j = gtArr m c (Blocks.elt t j) :=
  Blocks.iblk1_eq m c t j

/-- A block of predictions inside `(0, 1)` when the whole array is. -/
theorem blk0_inDomain (c : Dev nD) (hP : Cert.Ghm.InDomain (preArr m c)) (t : Fin cfg0.N) : Cert.Ghm.InDomain (blk0 m c t) := by
  intro j
  rw [blk0_apply]
  exact hP _

/-- Two cores of twenty points are the forty points. -/
theorem sum_two_twenty {M : Type} [AddCommMonoid M] (h : ℕ → M) :
    ∑ c' : Fin 2, ∑ s ∈ Finset.range 20, h (20 * c'.val + s) = ∑ n ∈ Finset.range 40, h n := by
  rw [Fin.sum_univ_two, show (40 : ℕ) = 20 + 20 from rfl, Finset.sum_range_add]
  simp only [Fin.val_zero, Fin.val_one, Nat.mul_zero, Nat.zero_add, Nat.mul_one]

/-- A sum over the points of sums over their blocks, the points counted as naturals below forty. -/
theorem sum_points {M : Type} [AddCommMonoid M] (H : Fin cfg0.N → M) :
    ∑ n ∈ Finset.range 40, (if h : n < cfg0.N then H ⟨n, h⟩ else 0) = ∑ t : Fin cfg0.N, H t := by
  have hN : cfg0.N = 40 := N_0
  rw [← hN, ← Fin.sum_univ_eq_sum_range (fun n => if h : n < cfg0.N then H ⟨n, h⟩ else 0) cfg0.N]
  exact Finset.sum_congr rfl fun t _ => by rw [dif_pos t.isLt]

/-- The ten numbers the tail reads from the population array are the populations of the whole arrays. -/
theorem popOf_eq (c : Dev nD) (b : Fin 10) :
    Tail.popOf m c b = Cert.Ghm.cntV (preArr m c) (gtArr m c) b := by
  unfold Tail.popOf Tail.arr2
  simp only [Fold.final2 m c]
  rw [sum_two_twenty (fun n => Fold.addC m c n (ix3 (0 : Fin 1) (0 : Fin 8) (⟨b.val, by omega⟩ : Fin 128)))]
  have hadd : ∀ n, Fold.addC m c n (ix3 (0 : Fin 1) (0 : Fin 8) (⟨b.val, by omega⟩ : Fin 128))
      = if h : n < cfg0.N then
          (∑ j : S4096x128.Idx, if Cert.Ghm.binOf (preArr m c (Blocks.elt ⟨n, h⟩ j)) (gtArr m c (Blocks.elt ⟨n, h⟩ j)) = BitVec.ofNat 32 b.val then (1 : EReal) else 0)
        else 0 := by
    intro n
    unfold Fold.addC
    by_cases h : n < cfg0.N
    · rw [dif_pos h, dif_pos h]
      refine (Eval.accC_apply (blk0 m c ⟨n, h⟩) (blk1 m c ⟨n, h⟩) b).trans ?_
      unfold Cert.Ghm.cntV
      exact Finset.sum_congr rfl fun j _ => by rw [blk0_apply, blk1_apply]
    · rw [dif_neg h, dif_neg h]
  simp only [hadd]
  rw [sum_points (fun t => ∑ j : S4096x128.Idx, if Cert.Ghm.binOf (preArr m c (Blocks.elt t j)) (gtArr m c (Blocks.elt t j)) = BitVec.ofNat 32 b.val then (1 : EReal) else 0),
    Blocks.sum_elt (fun i => if Cert.Ghm.binOf (preArr m c i) (gtArr m c i) = BitVec.ofNat 32 b.val then (1 : EReal) else 0)]
  unfold Cert.Ghm.cntV
  show Ideal.ofBits .f32 0x00000000#32 + _ = _
  rw [Ideal.ofBits_zero_f32, zero_add]

/-- The ten numbers the tail reads from the loss array are the per-bin losses of the whole arrays. -/
theorem lossOf_eq (c : Dev nD) (hP : Cert.Ghm.InDomain (preArr m c)) (b : Fin 10) :
    Tail.lossOf m c b = Cert.Ghm.losV (preArr m c) (gtArr m c) b := by
  unfold Tail.lossOf Tail.arr3
  simp only [Fold.final3 m c]
  rw [sum_two_twenty (fun n => Fold.addL m c n (ix3 (0 : Fin 1) (0 : Fin 8) (⟨b.val, by omega⟩ : Fin 128)))]
  have hadd : ∀ n, Fold.addL m c n (ix3 (0 : Fin 1) (0 : Fin 8) (⟨b.val, by omega⟩ : Fin 128))
      = if h : n < cfg0.N then
          (∑ j : S4096x128.Idx, if Cert.Ghm.binOf (preArr m c (Blocks.elt ⟨n, h⟩ j)) (gtArr m c (Blocks.elt ⟨n, h⟩ j)) = BitVec.ofNat 32 b.val
            then Cert.Ghm.ell (preArr m c (Blocks.elt ⟨n, h⟩ j)) (gtArr m c (Blocks.elt ⟨n, h⟩ j)) else 0)
        else 0 := by
    intro n
    unfold Fold.addL
    by_cases h : n < cfg0.N
    · rw [dif_pos h, dif_pos h]
      refine (Eval.accL_apply (blk0 m c ⟨n, h⟩) (blk1 m c ⟨n, h⟩) (blk0_inDomain m c hP ⟨n, h⟩) b).trans ?_
      unfold Cert.Ghm.losV
      exact Finset.sum_congr rfl fun j _ => by rw [blk0_apply, blk1_apply]
    · rw [dif_neg h, dif_neg h]
  simp only [hadd]
  rw [sum_points (fun t => ∑ j : S4096x128.Idx, if Cert.Ghm.binOf (preArr m c (Blocks.elt t j)) (gtArr m c (Blocks.elt t j)) = BitVec.ofNat 32 b.val
        then Cert.Ghm.ell (preArr m c (Blocks.elt t j)) (gtArr m c (Blocks.elt t j)) else 0),
    Blocks.sum_elt (fun i => if Cert.Ghm.binOf (preArr m c i) (gtArr m c i) = BitVec.ofNat 32 b.val then Cert.Ghm.ell (preArr m c i) (gtArr m c i) else 0)]
  unfold Cert.Ghm.losV
  show Ideal.ofBits .f32 0x00000000#32 + _ = _
  rw [Ideal.ofBits_zero_f32, zero_add]

variable (ρ : Dev nD → PrngReg)

/-- On predictions inside `(0, 1)`: every weakly fair execution of the kernel program terminates with the result at the
    weighted loss of the whole arrays' populations and per-bin losses, and the arguments unchanged. -/
theorem run (hP : ∀ c : Dev nD, Cert.Ghm.InDomain (preArr m c)) :
    θ_run (defs (F := Ideal)) (onTc (τ := τ) (main (F := Ideal))) ⟨m, fun _ => 0, ρ⟩ (fun r => ∀ c : Dev nD,
      r.2.mem ((c.tc : Thread nD τ).loc main_v22)
          = (fun _ => Cert.Ghm.result (Cert.Ghm.cntV (preArr m c) (gtArr m c)) (Cert.Ghm.losV (preArr m c) (gtArr m c))
              (fun b => (m ((c.tc : Thread nD τ).loc main_arg2) : S10.Idx → EReal) (ix1 b)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (defs (F := Ideal)) _ _).mono (fun r h c => ⟨?_, (h c).2⟩) (Tail.run_tail m ρ)
  rw [(h c).1]
  have e1 : Tail.popOf m c = Cert.Ghm.cntV (preArr m c) (gtArr m c) := funext (popOf_eq m c)
  have e2 : Tail.lossOf m c = Cert.Ghm.losV (preArr m c) (gtArr m c) := funext (lossOf_eq m c (hP c))
  rw [e1, e2]

end Cert.KernelIdeal.KValue

end
-- ==== Proof.GhmAlgebra.lean ====
/-
  The algebra that joins the two programs, on the extended reals.

  The reference weights every element's loss term by its bin's weight and adds the products; the kernel adds the loss terms
  bin by bin and weights the ten sums. The two agree because, on predictions strictly between zero and one, every loss term
  is a NEGATIVE REAL: a finite sum of negative reals times one extended real `w` is the sum of the products whatever `w` is —
  for a real `w` it is distributivity in ℝ, for `w = ⊤` both sides are `⊥` (or both `0` over no element), for `w = ⊥` both `⊤`.
  (A weight is `⊤` exactly when a bin's accumulated count is zero.) The reference spells the loss term as
  `log p · [g = 1] + log (1 + (−p)) · (1 − [g = 1])`, which on that domain is the same real number.
-/
import proofs.«413144_j52561809768998_3_alg».proof.Proof.GhmSpec
import Idealize.ShloMosaic.Lib.IdealHost

noncomputable section

namespace Cert.Ghm

open Idealize.ShloMosaic

/-- A signed word clamped to `[0, 9]` is one of the ten words `0 … 9`. -/
private theorem clamp_cases (v : BitVec 32) :
    ∃ b : Fin 10, IntOp.minsi 9#32 (IntOp.maxsi 0#32 v) = BitVec.ofNat 32 b.val := by
  unfold IntOp.minsi IntOp.maxsi
  by_cases h1 : v.slt 0#32 = true
  · refine ⟨⟨0, by omega⟩, ?_⟩
    rw [if_pos h1]
    have h90 : (9#32).slt 0#32 = false := by decide
    simp [h90]
  · rw [if_neg h1]
    by_cases h2 : (9#32).slt v = true
    · refine ⟨⟨9, by omega⟩, ?_⟩
      rw [if_pos h2]
    · rw [if_neg h2]
      simp only [BitVec.slt, decide_eq_true_eq, not_lt] at h1 h2
      have e0 : (0#32).toInt = 0 := by decide
      have e9 : (9#32).toInt = 9 := by decide
      rw [e0] at h1; rw [e9] at h2
      have hv : v.toNat < 10 := by
        have hc := BitVec.toInt_eq_toNat_cond v
        have hlt := v.isLt
        split_ifs at hc <;> omega
      refine ⟨⟨v.toNat, hv⟩, ?_⟩
      apply BitVec.eq_of_toNat_eq
      simp only [BitVec.toNat_ofNat]
      omega

/-- The bin of an element is one of the ten words `0 … 9`. -/
theorem binOf_cases (p g : EReal) : ∃ b : Fin 10, binOf p g = BitVec.ofNat 32 b.val := by
  unfold binOf
  exact clamp_cases _

/-- The word `1` is the real number one. -/
private theorem one_eq : one = ((1 : ℝ) : EReal) := by
  show Ideal.ofBits .f32 0x3F800000#32 = _
  rw [Ideal.ofBits_one_f32, EReal.coe_one]

/-- A one-bit word read unsigned is the real one when set and the real zero otherwise. -/
private theorem uitofp_bit (c : BitVec 1) :
    FloatOps.uitofp (F := Ideal) .f32 c = if c = 1#1 then ((1 : ℝ) : EReal) else ((0 : ℝ) : EReal) := by
  show ((c.toNat : ℝ) : EReal) = _
  have hc : c = 0#1 ∨ c = 1#1 := by revert c; decide
  rcases hc with rfl | rfl <;> simp

/-- The reference's spelling of the loss term: both logarithms, each times its 0/1 indicator. -/
def ellRef (p g : EReal) : EReal :=
  Ideal.log p * FloatOps.uitofp (F := Ideal) .f32 (Ideal.cmp .oeq g one)
    + Ideal.log1p (-p) * (one - FloatOps.uitofp (F := Ideal) .f32 (Ideal.cmp .oeq g one))

/-- On a prediction strictly between zero and one the loss term is a negative real. -/
theorem ell_neg (p g : EReal) (hp : ∃ r : ℝ, p = (r : EReal) ∧ 0 < r ∧ r < 1) : ∃ x : ℝ, ell p g = (x : EReal) ∧ x < 0 := by
  obtain ⟨r, rfl, h0, h1⟩ := hp
  unfold ell
  split_ifs with hc
  · refine ⟨Real.log r, ?_, Real.log_neg h0 h1⟩
    rw [Ideal.log_coe, if_neg (not_le.mpr h0)]
  · refine ⟨Real.log (1 - r), ?_, Real.log_neg (by linarith) (by linarith)⟩
    rw [one_eq, ← EReal.coe_sub, Ideal.log_coe, if_neg (not_le.mpr (by linarith))]

/-- On a prediction strictly between zero and one the two spellings of the loss term agree. -/
theorem ellRef_eq (p g : EReal) (hp : ∃ r : ℝ, p = (r : EReal) ∧ 0 < r ∧ r < 1) : ellRef p g = ell p g := by
  obtain ⟨r, rfl, h0, h1⟩ := hp
  have hl : Ideal.log (r : EReal) = ((Real.log r : ℝ) : EReal) := by
    rw [Ideal.log_coe, if_neg (not_le.mpr h0)]
  have hl2 : Ideal.log (((1 - r : ℝ)) : EReal) = ((Real.log (1 - r) : ℝ) : EReal) := by
    rw [Ideal.log_coe, if_neg (not_le.mpr (by linarith))]
  have hl1 : Ideal.log1p (-(r : EReal)) = ((Real.log (1 - r) : ℝ) : EReal) := by
    unfold Ideal.log1p
    rw [← sub_eq_add_neg, ← EReal.coe_one, ← EReal.coe_sub, hl2]
  unfold ellRef ell
  rw [uitofp_bit, hl, hl1]
  split_ifs with hc
  · rw [hl, one_eq, ← EReal.coe_sub, ← EReal.coe_mul, ← EReal.coe_mul, ← EReal.coe_add]
    congr 1; ring
  · rw [one_eq, ← EReal.coe_sub, ← EReal.coe_sub, hl2, ← EReal.coe_mul, ← EReal.coe_mul, ← EReal.coe_add]
    congr 1; ring

/-- The coercion of a finite sum of reals is the sum of the coercions. -/
private theorem coe_sum {ι : Type} (s : Finset ι) (x : ι → ℝ) :
    ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

/-- Over at least one element, a sum whose every term is `⊤` is `⊤`. -/
private theorem sum_top {ι : Type} (s : Finset ι) (hne : s.Nonempty) : ∑ _i ∈ s, (⊤ : EReal) = ⊤ := by
  classical
  obtain ⟨a, ha⟩ := hne
  rw [← Finset.add_sum_erase s _ ha]
  apply EReal.top_add_of_ne_bot
  have h0 : (0 : EReal) ≤ ∑ _x ∈ s.erase a, (⊤ : EReal) := Finset.sum_nonneg (fun _ _ => le_top)
  intro h
  rw [h] at h0
  exact absurd h0 (by simp)

/-- Over at least one element, a sum whose every term is `⊥` is `⊥`. -/
private theorem sum_bot {ι : Type} (s : Finset ι) (hne : s.Nonempty) : ∑ _i ∈ s, (⊥ : EReal) = ⊥ := by
  classical
  obtain ⟨a, ha⟩ := hne
  rw [← Finset.add_sum_erase s _ ha, EReal.bot_add]

/-- A finite sum of negative reals times any extended real is the sum of the products. -/
theorem sum_mul_of_neg {ι : Type} (s : Finset ι) (x : ι → ℝ) (hx : ∀ i ∈ s, x i < 0) (w : EReal) :
    ∑ i ∈ s, (x i : EReal) * w = ((∑ i ∈ s, x i : ℝ) : EReal) * w := by
  classical
  induction w using EReal.rec with
  | bot =>
    rcases s.eq_empty_or_nonempty with rfl | hne
    · simp
    · rw [EReal.coe_mul_bot_of_neg (Finset.sum_neg hx hne),
        Finset.sum_congr rfl (fun i hi => EReal.coe_mul_bot_of_neg (hx i hi)), sum_top s hne]
  | coe w =>
    rw [← EReal.coe_mul, Finset.sum_mul, coe_sum]
    exact Finset.sum_congr rfl (fun i _ => (EReal.coe_mul _ _).symm)
  | top =>
    rcases s.eq_empty_or_nonempty with rfl | hne
    · simp
    · rw [EReal.coe_mul_top_of_neg (Finset.sum_neg hx hne),
        Finset.sum_congr rfl (fun i hi => EReal.coe_mul_top_of_neg (hx i hi)), sum_bot s hne]

/-- Two of the ten bin words are equal exactly when their numbers are. -/
private theorem ofNat_inj_fin10 (a b : Fin 10) : BitVec.ofNat 32 a.val = BitVec.ofNat 32 b.val ↔ a = b := by
  constructor
  · intro h
    have h' := congrArg BitVec.toNat h
    simp only [BitVec.toNat_ofNat] at h'
    apply Fin.ext
    have ha := a.isLt
    have hb := b.isLt
    omega
  · rintro rfl; rfl

/-- Weighting element by element is weighting bin by bin: for any ten weights, with `β i` the bin of element `i`. -/
theorem weighted_sum {ι : Type} [Fintype ι] (P G : ι → EReal) (hP : InDomain P) (W : Fin 10 → EReal)
    (β : ι → Fin 10) (hβ : ∀ i, binOf (P i) (G i) = BitVec.ofNat 32 (β i).val) :
    ∑ i, ell (P i) (G i) * W (β i) = ∑ b, W b * losV P G b := by
  classical
  choose x hx hneg using fun i => ell_neg (P i) (G i) (hP i)
  have hbin : ∀ i b, binOf (P i) (G i) = BitVec.ofNat 32 b.val ↔ β i = b := fun i b => by
    rw [hβ i]; exact ofNat_inj_fin10 _ _
  have hlos : ∀ b, losV P G b = ((∑ i ∈ Finset.univ.filter (fun i => β i = b), x i : ℝ) : EReal) := by
    intro b
    unfold losV
    rw [coe_sum, Finset.sum_filter]
    refine Finset.sum_congr rfl (fun i _ => ?_)
    simp only [hbin, hx]
  rw [← Finset.sum_fiberwise Finset.univ β]
  refine Finset.sum_congr rfl (fun b _ => ?_)
  rw [hlos b, mul_comm, ← sum_mul_of_neg _ _ (fun i _ => hneg i)]
  refine Finset.sum_congr rfl (fun i hi => ?_)
  rw [hx i, (Finset.mem_filter.mp hi).2]

end Cert.Ghm

end
-- ==== Proof.RefCount.lean ====
/-
  The reference's two data-dependent operations, read at an index.

  Every element's bin is computed by the same chain as the specification's `binOf`; a negative index would be wrapped by
  adding ten, which never happens to a bin. The scatter adds a one into counter `b` for every element whose bin is `b`,
  from zero: counter `b` ends at the population of bin `b`. The gather reads, for every element, entry `bin` of the
  ten-vector it is given.
-/
import proofs.«413144_j52561809768998_3_alg».proof.Proof.RefReadP
import proofs.«413144_j52561809768998_3_alg».proof.Proof.GhmAlgebra
import Idealize.ShloMosaic.Lib.IdealHost
import Idealize.ShloMosaic.Lib.ValueIdx
import Idealize.ShloMosaic.Lib.Pipeline.Value
import Idealize.ShloMosaic.PureOps.Ideal.Laws

noncomputable section

namespace Cert.ReferenceIdeal.RefCount

open Idealize.ShloMosaic Idealize.ShloMosaic.ValueIdx Cert.ReferenceIdeal Cert.ReferenceIdeal.Gen Cert.ReferenceIdeal.ReadP

/-- The clamped bin stage is the specification's bin of the element. -/
theorem bin_eq (X0 X1 : S16x80x128x128.Idx → EReal) (i : S16x80x128x128.Idx) :
    ReadP.val_main_v6 (F := Ideal) X0 X1 i = Cert.Ghm.binOf (X0 i) (X1 i) := by
  rw [val_main_v6_apply, val_main_call0_v4_apply, val_main_call0_v3_apply, val_main_c_0_apply,
    val_main_call0_v2_apply, val_main_call0_v1_apply, val_main_call0_v0_apply, val_main_c_apply,
    val_main_v5_apply, val_main_v4_apply, val_main_v3_apply, val_main_v1_apply, val_main_v0_apply,
    val_main_v2_apply, val_main_cst_apply]
  rfl

/-- A bin word is not negative as a signed word, so the wrap of a negative index by ten leaves it as it is. -/
private theorem wrap_bin (v : BitVec 32) (h : ∃ k : Fin 10, v = BitVec.ofNat 32 k.val) :
    Scalar.select (IntOp.cmpi .slt v 0#32) (IntOp.addi v 10#32) v = v := by
  obtain ⟨k, rfl⟩ := h
  fin_cases k <;> decide

/-- A bin word read as a signed integer is its number. -/
private theorem toInt_bin (k : Fin 10) : (BitVec.ofNat 32 k.val).toInt = (k.val : Int) := by
  fin_cases k <;> decide

/-- Two of the ten bin words are equal exactly when their numbers are. -/
private theorem bin_word_inj (a b : Fin 10) : BitVec.ofNat 32 a.val = BitVec.ofNat 32 b.val ↔ a = b := by
  constructor
  · intro h
    have h' := congrArg BitVec.toNat h
    simp only [BitVec.toNat_ofNat] at h'
    apply Fin.ext
    have ha := a.isLt
    have hb := b.isLt
    omega
  · rintro rfl; rfl

/-- The scatter's index stage, before its trailing unit axis, is the element's bin. -/
private theorem v12_eq (X0 X1 : S16x80x128x128.Idx → EReal) (j : S16x80x128x128.Idx) :
    ReadP.val_main_v12 (F := Ideal) X0 X1 j = Cert.Ghm.binOf (X0 j) (X1 j) := by
  rw [val_main_v12_apply, val_main_v9_apply, val_main_v11_apply, val_main_v8_apply, val_main_c_2_apply,
    val_main_v10_apply, val_main_c_3_apply, bin_eq]
  exact wrap_bin _ (Cert.Ghm.binOf_cases _ _)

/-- The index word the scatter reads for update element `j` is `j`'s bin. -/
private theorem v13_at (X0 X1 : S16x80x128x128.Idx → EReal) (j : S16x80x128x128.Idx)
    (c : Fin scatter_S10_S16x80x128x128x1_S16x80x128x128_n_0_0_4.scatterDimsToOperandDims.length) :
    ReadP.val_main_v13 (F := Ideal) X0 X1 (scatter_S10_S16x80x128x128x1_S16x80x128x128_n_0_0_4.siIdx j c)
      = Cert.Ghm.binOf (X0 j) (X1 j) := by
  have hj : idx_main_v13 (scatter_S10_S16x80x128x128x1_S16x80x128x128_n_0_0_4.siIdx j c) = j := by
    funext a
    refine Fin.ext ?_
    match a with
    | ⟨0, _⟩ => rfl
    | ⟨1, _⟩ => rfl
    | ⟨2, _⟩ => rfl
    | ⟨3, _⟩ => rfl
  rw [val_main_v13_apply, v12_eq, hj]

/-- The counters' one axis is an inserted window axis: an update element has no window coordinate on it. -/
private theorem scatter_window (j : S16x80x128x128.Idx) :
    scatter_S10_S16x80x128x128x1_S16x80x128x128_n_0_0_4.window j 0 = 0 := by
  unfold ScatterDims.window
  rw [dif_neg]
  show (0 : Fin 1) ∉ (List.finRange 1).filter (· ∉ [0])
  decide

/-- The window of update element `j` starts at `j`'s bin, read as a signed integer. -/
private theorem scatter_start (X0 X1 : S16x80x128x128.Idx → EReal) (j : S16x80x128x128.Idx) :
    scatter_S10_S16x80x128x128x1_S16x80x128x128_n_0_0_4.start j (ReadP.val_main_v13 (F := Ideal) X0 X1) 0
      = (Cert.Ghm.binOf (X0 j) (X1 j)).toInt := by
  unfold ScatterDims.start
  rw [dif_pos (show (0 : Fin 1) ∈ scatter_S10_S16x80x128x128x1_S16x80x128x128_n_0_0_4.scatterDimsToOperandDims from
    List.mem_singleton.mpr rfl), v13_at]

/-- An update element of bin `k` lands on counter `k`. -/
private theorem scatter_lands (X0 X1 : S16x80x128x128.Idx → EReal) (j : S16x80x128x128.Idx) (k : Fin 10)
    (hk : Cert.Ghm.binOf (X0 j) (X1 j) = BitVec.ofNat 32 k.val) :
    scatter_S10_S16x80x128x128x1_S16x80x128x128_n_0_0_4.resultIdx? j (ReadP.val_main_v13 (F := Ideal) X0 X1)
      = some (ix1 k) := by
  have hs : ∀ a : Fin 1,
      scatter_S10_S16x80x128x128x1_S16x80x128x128_n_0_0_4.start j (ReadP.val_main_v13 (F := Ideal) X0 X1) a
        + scatter_S10_S16x80x128x128x1_S16x80x128x128_n_0_0_4.window j a = (k.val : Int) := by
    intro a
    obtain rfl : a = 0 := Subsingleton.elim _ _
    rw [scatter_window, scatter_start, hk, toInt_bin]
    simp
  have hk10 := k.isLt
  have h : ∀ a : Fin S10.rank,
      0 ≤ scatter_S10_S16x80x128x128x1_S16x80x128x128_n_0_0_4.start j (ReadP.val_main_v13 (F := Ideal) X0 X1) a
          + scatter_S10_S16x80x128x128x1_S16x80x128x128_n_0_0_4.window j a
      ∧ scatter_S10_S16x80x128x128x1_S16x80x128x128_n_0_0_4.start j (ReadP.val_main_v13 (F := Ideal) X0 X1) a
          + scatter_S10_S16x80x128x128x1_S16x80x128x128_n_0_0_4.window j a < S10.size a := by
    intro a
    rw [hs a]
    obtain rfl : a = 0 := Subsingleton.elim _ _
    refine ⟨by omega, ?_⟩
    show (k.val : Int) < (10 : Nat)
    omega
  unfold ScatterDims.resultIdx?
  rw [dif_pos h]
  refine congrArg some ?_
  funext a
  obtain rfl : a = 0 := Subsingleton.elim _ _
  refine Fin.ext ?_
  have h0 := hs 0
  simp only [h0]
  show (k.val : Int).toNat = k.val
  simp

/-- Counter `b` of the scatter is the population of bin `b`. -/
theorem scatter_eq (X0 X1 : S16x80x128x128.Idx → EReal) (b : Fin 10) :
    ReadP.val_main_v15 (F := Ideal) X0 X1 (ix1 b) = Cert.Ghm.cntV X0 X1 b := by
  unfold val_main_v15 Host.scatterAdd
  rw [Ideal.hostScatterAdd_def]
  unfold Ideal.hostScatterAdd
  rw [val_main_v7_apply, val_main_cst_1_apply, Ideal.ofBits_def, Ideal.ofBits_zero_f32, zero_add, Finset.sum_filter]
  unfold Cert.Ghm.cntV
  refine Finset.sum_congr rfl (fun j _ => ?_)
  rw [val_main_v14_apply, val_main_cst_4_apply, Ideal.ofBits_def, Ideal.ofBits_one_f32]
  obtain ⟨k, hk⟩ := Cert.Ghm.binOf_cases (X0 j) (X1 j)
  rw [scatter_lands X0 X1 j k hk, hk]
  by_cases h : k = b
  · subst h
    rw [if_pos rfl, if_pos rfl]
  · rw [if_neg (fun e => h (by
      have := congrFun (Option.some.inj e) 0
      exact this)), if_neg (fun e => h ((bin_word_inj k b).mp e))]

/-- The gather's index stage, before its trailing unit axis, is the element's bin. -/
private theorem v27_eq (X0 X1 : S16x80x128x128.Idx → EReal) (j : S16x80x128x128.Idx) :
    ReadP.val_main_v27 (F := Ideal) X0 X1 j = Cert.Ghm.binOf (X0 j) (X1 j) := by
  rw [val_main_v27_apply, val_main_v24_apply, val_main_v26_apply, val_main_v23_apply, val_main_c_9_apply,
    val_main_v25_apply, val_main_c_10_apply, bin_eq]
  exact wrap_bin _ (Cert.Ghm.binOf_cases _ _)

/-- The index word the gather reads for result element `j` is `j`'s bin. -/
private theorem v28_at (X0 X1 : S16x80x128x128.Idx → EReal) (j : S16x80x128x128.Idx)
    (c : Fin gather_S10_S16x80x128x128x1_S16x80x128x128_n_0_n_n_0_4_1.startIndexMap.length) :
    ReadP.val_main_v28 (F := Ideal) X0 X1 (gather_S10_S16x80x128x128x1_S16x80x128x128_n_0_n_n_0_4_1.siIdx j c)
      = Cert.Ghm.binOf (X0 j) (X1 j) := by
  have hj : idx_main_v28 (gather_S10_S16x80x128x128x1_S16x80x128x128_n_0_n_n_0_4_1.siIdx j c) = j := by
    funext a
    refine Fin.ext ?_
    match a with
    | ⟨0, _⟩ => rfl
    | ⟨1, _⟩ => rfl
    | ⟨2, _⟩ => rfl
    | ⟨3, _⟩ => rfl
  rw [val_main_v28_apply, v27_eq, hj]

/-- The slice of result element `j` starts at `j`'s bin, read as a signed integer and clamped into the ten entries. -/
private theorem gather_start (X0 X1 : S16x80x128x128.Idx → EReal) (j : S16x80x128x128.Idx) :
    gather_S10_S16x80x128x128x1_S16x80x128x128_n_0_n_n_0_4_1.start j (ReadP.val_main_v28 (F := Ideal) X0 X1) 0
      = min (Cert.Ghm.binOf (X0 j) (X1 j)).toInt.toNat 9 := by
  unfold GatherDims.start
  rw [dif_pos (show (0 : Fin 1) ∈ gather_S10_S16x80x128x128x1_S16x80x128x128_n_0_n_n_0_4_1.startIndexMap from
    List.mem_singleton.mpr rfl), v28_at]
  rfl

/-- The gathered weight of an element of bin `β` is entry `β` of the ten weights. -/
theorem gather_eq (X0 X1 : S16x80x128x128.Idx → EReal) (X2 : S10.Idx → EReal) (i : S16x80x128x128.Idx) (β : Fin 10)
    (hβ : Cert.Ghm.binOf (X0 i) (X1 i) = BitVec.ofNat 32 β.val) :
    ReadP.val_main_v29 (F := Ideal) X0 X1 X2 i = ReadP.val_main_v22 (F := Ideal) X0 X1 X2 (ix1 β) := by
  unfold val_main_v29 Host.gather
  congr 1
  funext a
  obtain rfl : a = 0 := Subsingleton.elim _ _
  refine Fin.ext ?_
  have hβ10 := β.isLt
  have hst := gather_start X0 X1 i
  rw [hβ, toInt_bin] at hst
  have hb := GatherDims.batchCoord_eq_zero gather_S10_S16x80x128x128x1_S16x80x128x128_n_0_n_n_0_4_1 i 0 List.not_mem_nil
  have ho := GatherDims.offCoord_eq_zero gather_S10_S16x80x128x128x1_S16x80x128x128_n_0_n_n_0_4_1 i 0
    (fun h => ((GatherDims.mem_sKept _ _).mp h).1 (List.mem_singleton.mpr rfl))
  show gather_S10_S16x80x128x128x1_S16x80x128x128_n_0_n_n_0_4_1.start i (ReadP.val_main_v28 (F := Ideal) X0 X1) 0
      + gather_S10_S16x80x128x128x1_S16x80x128x128_n_0_n_n_0_4_1.batchCoord i 0
      + gather_S10_S16x80x128x128x1_S16x80x128x128_n_0_n_n_0_4_1.offCoord i 0 = β.val
  rw [hst, hb, ho]
  simp
  omega

end Cert.ReferenceIdeal.RefCount

end
-- ==== Proof.RefValue.lean ====
/-
  The reference program's result as the specification's function of its arguments.

  Read one operation at a time, the reference computes every element's bin, scatters a one per element into ten counters,
  turns the counters into the ten weights, gathers each element's weight by its bin, multiplies it into the element's loss
  term (both logarithms, each times its 0/1 indicator), adds the products over the whole array and divides by the element
  count. On predictions strictly between zero and one that is the specification's `result` of the ten populations and the
  ten per-bin losses: the scatter's counters are the populations, the gathered weight of an element is its bin's weight,
  and weighting element by element is weighting bin by bin.
-/
import proofs.«413144_j52561809768998_3_alg».proof.Proof.RefReadP
import proofs.«413144_j52561809768998_3_alg».proof.Proof.GhmAlgebra
import proofs.«413144_j52561809768998_3_alg».proof.Proof.RefCount
import Idealize.ShloMosaic.Lib.IdealHost
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.ReadP

/-- A sum over a rank-one index set is the sum over its coordinate. -/
private theorem sum_idx1 {M : Type*} [AddCommMonoid M] {n : Nat} (f : (⟨1, ![n]⟩ : Shape).Idx → M) :
    ∑ j, f j = ∑ b : Fin n, f (ix1 b) :=
  (Fintype.sum_equiv ⟨ix1, fun j => j 0, fun _ => rfl, fun j => (eq_ix1 j).symm⟩ _ _ (fun _ => rfl)).symm

/-- The loss term of an element, in the reference's spelling. -/
private theorem v44_at (X0 X1 : S16x80x128x128.Idx → EReal) (j : S16x80x128x128.Idx) :
    ReadP.val_main_v44 (F := Ideal) X0 X1 j = Cert.Ghm.ellRef (X0 j) (X1 j) := by
  rw [val_main_v44_apply, val_main_v40_apply, val_main_v43_apply, val_main_v39_apply, val_main_v42_apply,
    val_main_v41_apply, val_main_v38_apply, val_main_v36_apply, val_main_v35_apply, val_main_v37_apply,
    val_main_v34_apply]
  rfl

/-- The occupancy bit of counter `b` is the specification's, of the populations. -/
private theorem v17_at (X0 X1 : S16x80x128x128.Idx → EReal) (b : Fin 10) :
    ReadP.val_main_v17 (F := Ideal) X0 X1 (ix1 b) = Cert.Ghm.occupied (Cert.Ghm.cntV X0 X1) b := by
  rw [val_main_v17_apply, RefCount.scatter_eq, val_main_v16_apply]
  rfl

/-- The sum of the ten occupancy bits is the number of occupied bins. -/
private theorem v19_at (X0 X1 : S16x80x128x128.Idx → EReal) (k : S_.Idx) :
    ReadP.val_main_v19 (F := Ideal) X0 X1 k = Cert.Ghm.nBins (Cert.Ghm.cntV X0 X1) := by
  rw [val_main_v19_apply, sum_idx1, val_main_cst_6_apply]
  unfold Cert.Ghm.nBins
  refine congrArg (fun s => Cert.Ghm.zero + s) (Finset.sum_congr rfl (fun b _ => ?_))
  rw [val_main_v18_apply, v17_at]

/-- Entry `b` of the ten weights before normalisation. -/
private theorem v22_at (X0 X1 : S16x80x128x128.Idx → EReal) (X2 : S10.Idx → EReal) (b : Fin 10) :
    ReadP.val_main_v22 (F := Ideal) X0 X1 X2 (ix1 b)
      = Cert.Ghm.wPer (Cert.Ghm.cntV X0 X1) (fun b => X2 (ix1 b)) b := by
  rw [val_main_v22_apply, v17_at, val_main_v21_apply, val_main_v20_apply, val_main_call1_v0_apply]
  rfl

/-- The weight of an element of bin `β` is the weight of bin `β`. -/
private theorem v33_at (X0 X1 : S16x80x128x128.Idx → EReal) (X2 : S10.Idx → EReal) (j : S16x80x128x128.Idx) (β : Fin 10)
    (hβ : Cert.Ghm.binOf (X0 j) (X1 j) = BitVec.ofNat 32 β.val) :
    ReadP.val_main_v33 (F := Ideal) X0 X1 X2 j
      = Cert.Ghm.wFin (Cert.Ghm.cntV X0 X1) (fun b => X2 (ix1 b)) β := by
  unfold ReadP.val_main_v33
  rw [select_apply, broadcastInDim_apply _ bcast_S_S16x80x128x128 _ j (fun a => a.elim0) (fun a => a.elim0),
    val_main_v30_apply, v19_at, val_main_v32_apply, val_main_v31_apply, v19_at,
    RefCount.gather_eq X0 X1 X2 j β hβ, v22_at, val_main_cst_11_apply]
  rfl

/-- On predictions inside `(0, 1)` the reference's result is the weighted loss of the ten populations and per-bin losses. -/
theorem value_eq (X0 X1 : S16x80x128x128.Idx → EReal) (X2 : S10.Idx → EReal) (hP : Cert.Ghm.InDomain X0) :
    ReadP.val_main_v47 (F := Ideal) X0 X1 X2
      = fun _ => Cert.Ghm.result (Cert.Ghm.cntV X0 X1) (Cert.Ghm.losV X0 X1) (fun b => X2 (ix1 b)) := by
  funext k
  choose β hβ using fun i => Cert.Ghm.binOf_cases (X0 i) (X1 i)
  have hsum : ∑ j, ReadP.val_main_v45 (F := Ideal) X0 X1 X2 j
      = ∑ b, Cert.Ghm.wFin (Cert.Ghm.cntV X0 X1) (fun b => X2 (ix1 b)) b * Cert.Ghm.losV X0 X1 b := by
    rw [← Cert.Ghm.weighted_sum X0 X1 hP (Cert.Ghm.wFin (Cert.Ghm.cntV X0 X1) (fun b => X2 (ix1 b))) β hβ]
    refine Finset.sum_congr rfl (fun j _ => ?_)
    rw [val_main_v45_apply, v44_at, Cert.Ghm.ellRef_eq _ _ (hP j), v33_at X0 X1 X2 j (β j) (hβ j)]
    rfl
  rw [val_main_v47_apply, val_main_v46_apply, hsum, val_main_cst_15_apply, val_main_cst_14_apply]
  rfl

end Cert.ReferenceIdeal.RefValue

end
-- ==== Proof.RefRead.lean ====
/-
  The reference program's value, read one operation at a time at an index.
-/
import proofs.«413144_j52561809768998_3_alg».proof.Proof.RefReadP

noncomputable section

namespace Cert.ReferenceIdeal.RefValue

end Cert.ReferenceIdeal.RefValue

end
-- ==== Proof.PreDomain.lean ====
/-
  What the precondition says of the predictions: every one is a real number strictly between zero and one.

  The precondition is a conjunction of five whole-array tests reduced by "and"; the first says every prediction is finite
  (its magnitude below `+∞`), the last two that every prediction is above `0` and below `1`.
-/
import proofs.«413144_j52561809768998_3_alg».proof.Pre_finite_inputs
import proofs.«413144_j52561809768998_3_alg».proof.Proof.GhmSpec
import Idealize.ShloMosaic.Lib.ReduceAll
import Idealize.ShloMosaic.Lib.ValueIdx
import Idealize.ShloMosaic.Lib.Pipeline.Value
import Idealize.ShloMosaic.Lib.IdealHost

noncomputable section

namespace Cert.Pre_finite_inputs.Domain

open Idealize.ShloMosaic Cert.Pre_finite_inputs

/-- The rank-zero shape has one index. -/
private instance subsingleton_S_ : Subsingleton S_.Idx := ⟨fun _ _ => funext fun d => d.elim0⟩

/-- The ordered "greater than" compare is 1 exactly when the right operand is strictly below the left. -/
private theorem cmp_ogt_eq_one {x y : EReal} : Ideal.cmp .ogt x y = 1#1 ↔ y < x := by
  unfold Ideal.cmp; by_cases hxy : y < x <;> simp [hxy]

/-- The ordered "less than" compare is 1 exactly when the left operand is strictly below the right. -/
private theorem cmp_olt_eq_one {x y : EReal} : Ideal.cmp .olt x y = 1#1 ↔ x < y := by
  unfold Ideal.cmp; by_cases hxy : x < y <;> simp [hxy]

/-- An extended real strictly between zero and one is a real strictly between zero and one. -/
private theorem real_of_between {x : EReal} (h0 : 0 < x) (h1 : x < 1) : ∃ r : ℝ, x = (r : EReal) ∧ 0 < r ∧ r < 1 := by
  induction x using EReal.rec with
  | bot => exact absurd h0 not_lt_bot
  | top => exact absurd h1 not_top_lt
  | coe r => exact ⟨r, rfl, by exact_mod_cast h0, by exact_mod_cast h1⟩

/-- Under the precondition every prediction is a real strictly between zero and one. -/
theorem inDomain_of_pre [Facts] (X0 X1 : S16x80x128x128.Idx → EReal) (X2 : S10.Idx → EReal)
    (h : fn (F := Ideal) X0 X1 X2 = fun _ => 1#1) : Cert.Ghm.InDomain X0 := by
  have h0 := congrFun h ValueIdx.ix0
  dsimp only [fn, fn_part1] at h0
  simp only [andi, IntOp.andi_eq_one] at h0
  obtain ⟨⟨-, h4⟩, h5⟩ := h0
  intro i
  have g4 := Host.reduce_andi_all _ _ _ _ _ h4 i
  have g5 := Host.reduce_andi_all _ _ _ _ _ h5 i
  simp only [cmpf, ValueIdx.broadcastInDim_scalar_apply, constant] at g4 g5
  change Ideal.cmp .ogt (X0 i) (Ideal.ofBits .f32 0x00000000#32) = 1#1 at g4
  change Ideal.cmp .olt (X0 i) (Ideal.ofBits .f32 0x3F800000#32) = 1#1 at g5
  rw [Ideal.ofBits_zero_f32, cmp_ogt_eq_one] at g4
  rw [Ideal.ofBits_one_f32, cmp_olt_eq_one] at g5
  exact real_of_between g4 g5

end Cert.Pre_finite_inputs.Domain

end
-- ==== Proof.lean ====
/-
  The proof of `Cert.Claim`: the kernel and its reference compute one extended real.

  The program is a binary cross-entropy whose elements are weighted by the population of the bin (ten bins) their gradient
  magnitude falls in. The reference weights every element's loss term and adds the products over the whole array. The kernel
  streams the array once in forty blocks over a 2 × 20 grid and keeps, per core, ten populations and ten per-bin sums of loss
  terms (the tenth of each as what the block's total leaves after the other nine); the host adds the two cores, forms the ten
  weights from the ten populations and takes the weighted sum of the ten losses.

  The precondition asks every input finite and every prediction strictly between zero and one, the domain of the reference's
  two logarithms. On it every loss term is a negative real, so weighting element by element is weighting bin by bin whatever
  the weights are (a weight is infinite when a bin's accumulated count is zero), and the subtraction that yields the tenth
  bin is the real one. Both programs' results are then the specification's `Cert.Ghm.result` of the same ten populations,
  the same ten per-bin losses and the same accumulated counts:
    the kernel's by its frame run, the body's addends, their fold over each core's twenty points, the blocks' tiling of the
    arrays and the host tail read at its index (Proof/KValue.lean);
    the reference's by its run read one operation at a time, its scatter's counters and its gathered weights
    (Proof/RefValue.lean).
  The three frame claims are the generated frame certificates and the reference's run; the idealization rewrote nothing, so
  `preserves` is trivial.
-/
import proofs.«413144_j52561809768998_3_alg».proof.Defs
import proofs.«413144_j52561809768998_3_alg».proof.Proof.Gen.Kernel
import proofs.«413144_j52561809768998_3_alg».proof.Proof.Gen.Kernel.Skeleton
import proofs.«413144_j52561809768998_3_alg».proof.Proof.Gen.Kernel.Launch
import proofs.«413144_j52561809768998_3_alg».proof.Proof.Gen.Kernel.Points
import proofs.«413144_j52561809768998_3_alg».proof.Proof.Gen.Kernel.Frame
import proofs.«413144_j52561809768998_3_alg».proof.Proof.Gen.KernelIdeal
import proofs.«413144_j52561809768998_3_alg».proof.Proof.Gen.KernelIdeal.Skeleton
import proofs.«413144_j52561809768998_3_alg».proof.Proof.Gen.KernelIdeal.Launch
import proofs.«413144_j52561809768998_3_alg».proof.Proof.Gen.KernelIdeal.Points
import proofs.«413144_j52561809768998_3_alg».proof.Proof.Gen.KernelIdeal.Frame
import proofs.«413144_j52561809768998_3_alg».proof.Proof.Gen.ReferenceIdeal
import proofs.«413144_j52561809768998_3_alg».proof.Proof.Gen.Pre_finite_inputs
import proofs.«413144_j52561809768998_3_alg».proof.Proof.KValue
import proofs.«413144_j52561809768998_3_alg».proof.Proof.RefValue
import proofs.«413144_j52561809768998_3_alg».proof.Proof.RefRead
import proofs.«413144_j52561809768998_3_alg».proof.Proof.PreDomain
import Idealize.ShloMosaic.Adequacy
import Idealize.ShloMosaic.Init

noncomputable section

namespace Cert.Proof

open Idealize.ShloMosaic Idealize.ShloMosaic.ValueIdx Idealize.SL.Sem

/-- The word-level kernel runs and leaves its arguments unchanged: the generated frame certificate. -/
theorem frame_k : Cert.frame_Kernel := fun m ρ _ => Cert.Kernel.Gen.frame m ρ

/-- The idealized kernel runs and leaves its arguments unchanged: the generated frame certificate. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end at the weighted loss of the same ten populations, the same
    ten per-bin losses and the same accumulated counts. -/
theorem algebraic : Cert.algebraic_KernelIdeal_ReferenceIdeal := by
  intro m ρ m' ρ' hpre hagree
  have hP : ∀ c : Dev Cert.KernelIdeal.nD, Cert.Ghm.InDomain (Cert.KernelIdeal.KValue.preArr m c) := fun c =>
    Cert.Pre_finite_inputs.Domain.inDomain_of_pre _ _ _ (hpre c)
  refine ⟨_, Cert.KernelIdeal.KValue.run m ρ hP, ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v47_eq, (hagree c).1, (hagree c).2.1, (hagree c).2.2]
  exact Cert.ReferenceIdeal.RefValue.value_eq _ _ _ (hP c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
